-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S100000x128 : Shape := ⟨2, ![100000, 128]⟩
abbrev S1000000 : Shape := ⟨1, ![1000000]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg17 : FVec F S128x128 .f32) (main_arg18 : FVec F S128 .f32) (main_arg19 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg17
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg19
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_v63 main_v67

def fn_part2 {F : FTy → Type} [FloatOps F] (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg16
  let main_cst_18 : FVec F S_ .f32 := constant S_ .f32 0x7F800000#32
  let main_v50 : FVec F S128x128 .f32 := broadcastInDim S128x128 ![] bcast_S_S128x128 main_cst_18
  fn_part3 (F := F) main_arg17 main_arg18 main_arg19 main_v48 main_v49 main_v50

def fn_part1 {F : FTy → Type} [FloatOps F] (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_arg15 main_arg16 main_arg17 main_arg18 main_arg19 main_v33

def fn {F : FTy → Type} [FloatOps F] (main_arg0 : FVec F S20000x128 .f32) (main_arg1 : FVec F S100000x128 .f32) (main_arg2 : IVec S1000000 32) (main_arg3 : IVec S1000000 32) (main_arg4 : IVec S1000000 32) (main_arg5 : IVec S1000000 32) (main_arg6 : IVec S500000 32) (main_arg7 : IVec S500000 32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_arg16 main_arg17 main_arg18 main_arg19 main_v13 main_v16
-- ==== Kernel.lean ====
abbrev S20000x128 : Shape := ⟨2, ![20000, 128]⟩
abbrev S100000x128 : Shape := ⟨2, ![100000, 128]⟩
abbrev S1000000 : Shape := ⟨1, ![1000000]⟩
abbrev S500000 : Shape := ⟨1, ![500000]⟩
abbrev S128x128 : Shape := ⟨2, ![128, 128]⟩
abbrev S128 : Shape := ⟨1, ![128]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S20000 : Shape := ⟨1, ![20000]⟩
abbrev S20000x1 : Shape := ⟨2, ![20000, 1]⟩
abbrev S1000000x128 : Shape := ⟨2, ![1000000, 128]⟩
abbrev S500000x1 : Shape := ⟨2, ![500000, 1]⟩
abbrev S500000x128 : Shape := ⟨2, ![500000, 128]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 133
  | .vmem => 44
  | .smem => 0
  | _ => 0

abbrev hbmTy0_0 (i : Nat) : BufTy := match i % 128 with
  | 0 => ⟨S20000x128, .f32⟩
  | 1 => ⟨S100000x128, .f32⟩
  | 2 => ⟨S1000000, .i32⟩
  | 3 => ⟨S1000000, .i32⟩
  | 4 => ⟨S1000000, .i32⟩
  | 5 => ⟨S1000000, .i32⟩
  | 6 => ⟨S500000, .i32⟩
  | 7 => ⟨S500000, .i32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S_, .f32⟩
  | 21 => ⟨S1000000, .f32⟩
  | 22 => ⟨S_, .f32⟩
  | 23 => ⟨S100000, .f32⟩
  | 24 => ⟨S1000000x1, .i32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S100000x1, .f32⟩
  | 33 => ⟨S_, .f32⟩
  | 34 => ⟨S1000000, .f32⟩
  | 35 => ⟨S_, .f32⟩
  | 36 => ⟨S20000, .f32⟩
  | 37 => ⟨S1000000x1, .i32⟩
  | 38 => ⟨S20000, .f32⟩
  | 39 => ⟨S_, .f32⟩
  | 40 => ⟨S20000, .f32⟩
  | 41 => ⟨S20000, .f32⟩
  | 42 => ⟨S_, .f32⟩
  | 43 => ⟨S20000, .f32⟩
  | 44 => ⟨S20000, .f32⟩
  | 45 => ⟨S20000x1, .f32⟩
  | 46 => ⟨S128x128, .bf16⟩
  | 47 => ⟨S128x128, .bf16⟩
  | 48 => ⟨S128x128, .bf16⟩
  | 49 => ⟨S128x128, .bf16⟩
  | 50 => ⟨S128x128, .bf16⟩
  | 51 => ⟨S128x128, .bf16⟩
  | 52 => ⟨S128x128, .bf16⟩
  | 53 => ⟨S128x128, .bf16⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S1000000x128, .f32⟩
  | 63 => ⟨S_, .f32⟩
  | 64 => ⟨S100000x128, .f32⟩
  | 65 => ⟨S1000000x1, .i32⟩
  | 66 => ⟨S100000x128, .f32⟩
  | 67 => ⟨S100000x128, .bf16⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000x128, .f32⟩
  | 77 => ⟨S_, .f32⟩
  | 78 => ⟨S20000x128, .f32⟩
  | 79 => ⟨S1000000x1, .i32⟩
  | 80 => ⟨S20000x128, .f32⟩
  | 81 => ⟨S20000x128, .bf16⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000x128, .bf16⟩
  | 91 => ⟨S1000000x128, .f32⟩
  | 92 => ⟨S_, .f32⟩
  | 93 => ⟨S100000x128, .f32⟩
  | 94 => ⟨S1000000x1, .i32⟩
  | 95 => ⟨S100000x128, .f32⟩
  | 96 => ⟨S100000x128, .f32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x128, .bf16⟩
  | 106 => ⟨S1000000x128, .f32⟩
  | 107 => ⟨S_, .f32⟩
  | 108 => ⟨S20000x128, .f32⟩
  | 109 => ⟨S1000000x1, .i32⟩
  | 110 => ⟨S20000x128, .f32⟩
  | 111 => ⟨S20000x128, .f32⟩
  | 112 => ⟨S_, .i32⟩
  | 113 => ⟨S500000, .i32⟩
  | 114 => ⟨S500000, .i1⟩
  | 115 => ⟨S_, .i32⟩
  | 116 => ⟨S500000, .i32⟩
  | 117 => ⟨S500000, .i32⟩
  | 118 => ⟨S500000, .i32⟩
  | 119 => ⟨S500000x1, .i32⟩
  | 120 => ⟨S500000x128, .f32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S20000x128, .f32⟩

abbrev hbmTy0_1 (i : Nat) : BufTy := match i % 128 with
  | 0 => ⟨S500000x1, .i32⟩
  | 1 => ⟨S500000x128, .f32⟩
  | 2 => ⟨S500000x128, .f32⟩
  | 3 => ⟨S_, .f32⟩
  | 4 => ⟨S500000, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | .local _ .vmem, ⟨7, _⟩ => ⟨S128, .f32⟩
  | .local _ .vmem, ⟨8, _⟩ => ⟨S128x128, .bf16⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .bf16⟩
  | .local _ .vmem, ⟨18, _⟩ => ⟨S128, .f32⟩
  | .local _ .vmem, ⟨19, _⟩ => ⟨S128x128, .bf16⟩
  | .local _ .vmem, ⟨20, _⟩ => ⟨S5000x128, .bf16⟩
  | .local _ .vmem, ⟨21, _⟩ => ⟨S5000x128, .bf16⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .bf16⟩
  | .local _ .vmem, ⟨27, _⟩ => ⟨S5000x128, .bf16⟩
  | .local _ .vmem, ⟨28, _⟩ => ⟨S128x128, .bf16⟩
  | .local _ .vmem, ⟨29, _⟩ => ⟨S128, .f32⟩
  | .local _ .vmem, ⟨30, _⟩ => ⟨S128x128, .bf16⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S5000x128, .bf16⟩
  | .local _ .vmem, ⟨38, _⟩ => ⟨S5000x128, .bf16⟩
  | .local _ .vmem, ⟨39, _⟩ => ⟨S128x128, .bf16⟩
  | .local _ .vmem, ⟨40, _⟩ => ⟨S128, .f32⟩
  | .local _ .vmem, ⟨41, _⟩ => ⟨S128x128, .bf16⟩
  | .local _ .vmem, ⟨42, _⟩ => ⟨S5000x128, .f32⟩
  | .local _ .vmem, ⟨43, _⟩ => ⟨S5000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_cst : Ref sig .tc := ⟨.hbm, 20, rfl⟩
abbrev main_call0_v0 : Ref sig .tc := ⟨.hbm, 21, rfl⟩
abbrev main_call0_cst_0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_cst_1 : Ref sig .tc := ⟨.hbm, 26, rfl⟩
abbrev main_call0_v4 : Ref sig .tc := ⟨.hbm, 27, rfl⟩
abbrev main_call0_v5 : Ref sig .tc := ⟨.hbm, 28, rfl⟩
abbrev main_call0_cst_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_cst_3 : Ref sig .tc := ⟨.hbm, 33, rfl⟩
abbrev main_call0_v9 : Ref sig .tc := ⟨.hbm, 34, rfl⟩
abbrev main_call0_cst_4 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_cst_5 : Ref sig .tc := ⟨.hbm, 39, rfl⟩
abbrev main_call0_v13 : Ref sig .tc := ⟨.hbm, 40, rfl⟩
abbrev main_call0_v14 : Ref sig .tc := ⟨.hbm, 41, rfl⟩
abbrev main_call0_cst_6 : Ref sig .tc := ⟨.hbm, 42, rfl⟩
abbrev main_call0_v15 : Ref sig .tc := ⟨.hbm, 43, rfl⟩
abbrev main_call0_v16 : Ref sig .tc := ⟨.hbm, 44, rfl⟩
abbrev main_call0_v17 : Ref sig .tc := ⟨.hbm, 45, rfl⟩
abbrev main_call0_v18 : Ref sig .tc := ⟨.hbm, 46, rfl⟩
abbrev main_call0_v19 : Ref sig .tc := ⟨.hbm, 47, rfl⟩
abbrev main_call0_v20 : Ref sig .tc := ⟨.hbm, 48, rfl⟩
abbrev main_call0_v21 : Ref sig .tc := ⟨.hbm, 49, rfl⟩
abbrev main_call0_v22 : Ref sig .tc := ⟨.hbm, 50, rfl⟩
abbrev main_call0_v23 : Ref sig .tc := ⟨.hbm, 51, rfl⟩
abbrev main_call0_v24 : Ref sig .tc := ⟨.hbm, 52, rfl⟩
abbrev main_call0_v25 : Ref sig .tc := ⟨.hbm, 53, rfl⟩
abbrev main_call0_c : Ref sig .tc := ⟨.hbm, 54, rfl⟩
abbrev main_call0_v26 : Ref sig .tc := ⟨.hbm, 55, rfl⟩
abbrev main_call0_v27 : Ref sig .tc := ⟨.hbm, 56, rfl⟩
abbrev main_call0_c_7 : Ref sig .tc := ⟨.hbm, 57, rfl⟩
abbrev main_call0_v28 : Ref sig .tc := ⟨.hbm, 58, rfl⟩
abbrev main_call0_v29 : Ref sig .tc := ⟨.hbm, 59, rfl⟩
abbrev main_call0_v30 : Ref sig .tc := ⟨.hbm, 60, rfl⟩
abbrev main_call0_v31 : Ref sig .tc := ⟨.hbm, 61, rfl⟩
abbrev main_call0_v32 : Ref sig .tc := ⟨.hbm, 62, rfl⟩
abbrev main_call0_cst_8 : Ref sig .tc := ⟨.hbm, 63, rfl⟩
abbrev main_call0_v33 : Ref sig .tc := ⟨.hbm, 64, rfl⟩
abbrev main_call0_v34 : Ref sig .tc := ⟨.hbm, 65, rfl⟩
abbrev main_call0_v35 : Ref sig .tc := ⟨.hbm, 66, rfl⟩
abbrev main_call0_v36 : Ref sig .tc := ⟨.hbm, 67, rfl⟩
abbrev main_call0_c_9 : Ref sig .tc := ⟨.hbm, 68, rfl⟩
abbrev main_call0_v37 : Ref sig .tc := ⟨.hbm, 69, rfl⟩
abbrev main_call0_v38 : Ref sig .tc := ⟨.hbm, 70, rfl⟩
abbrev main_call0_c_10 : Ref sig .tc := ⟨.hbm, 71, rfl⟩
abbrev main_call0_v39 : Ref sig .tc := ⟨.hbm, 72, rfl⟩
abbrev main_call0_v40 : Ref sig .tc := ⟨.hbm, 73, rfl⟩
abbrev main_call0_v41 : Ref sig .tc := ⟨.hbm, 74, rfl⟩
abbrev main_call0_v42 : Ref sig .tc := ⟨.hbm, 75, rfl⟩
abbrev main_call0_v43 : Ref sig .tc := ⟨.hbm, 76, rfl⟩
abbrev main_call0_cst_11 : Ref sig .tc := ⟨.hbm, 77, rfl⟩
abbrev main_call0_v44 : Ref sig .tc := ⟨.hbm, 78, rfl⟩
abbrev main_call0_v45 : Ref sig .tc := ⟨.hbm, 79, rfl⟩
abbrev main_call0_v46 : Ref sig .tc := ⟨.hbm, 80, rfl⟩
abbrev main_call0_v47 : Ref sig .tc := ⟨.hbm, 81, rfl⟩
abbrev main_call0_c_12 : Ref sig .tc := ⟨.hbm, 82, rfl⟩
abbrev main_call0_v48 : Ref sig .tc := ⟨.hbm, 83, rfl⟩
abbrev main_call0_v49 : Ref sig .tc := ⟨.hbm, 84, rfl⟩
abbrev main_call0_c_13 : Ref sig .tc := ⟨.hbm, 85, rfl⟩
abbrev main_call0_v50 : Ref sig .tc := ⟨.hbm, 86, rfl⟩
abbrev main_call0_v51 : Ref sig .tc := ⟨.hbm, 87, rfl⟩
abbrev main_call0_v52 : Ref sig .tc := ⟨.hbm, 88, rfl⟩
abbrev main_call0_v53 : Ref sig .tc := ⟨.hbm, 89, rfl⟩
abbrev main_call0_v54 : Ref sig .tc := ⟨.hbm, 90, rfl⟩
abbrev main_call0_v55 : Ref sig .tc := ⟨.hbm, 91, rfl⟩
abbrev main_call0_cst_14 : Ref sig .tc := ⟨.hbm, 92, rfl⟩
abbrev main_call0_v56 : Ref sig .tc := ⟨.hbm, 93, rfl⟩
abbrev main_call0_v57 : Ref sig .tc := ⟨.hbm, 94, rfl⟩
abbrev main_call0_v58 : Ref sig .tc := ⟨.hbm, 95, rfl⟩
abbrev main_call0_v59 : Ref sig .tc := ⟨.hbm, 96, rfl⟩
abbrev main_call0_c_15 : Ref sig .tc := ⟨.hbm, 97, rfl⟩
abbrev main_call0_v60 : Ref sig .tc := ⟨.hbm, 98, rfl⟩
abbrev main_call0_v61 : Ref sig .tc := ⟨.hbm, 99, rfl⟩
abbrev main_call0_c_16 : Ref sig .tc := ⟨.hbm, 100, rfl⟩
abbrev main_call0_v62 : Ref sig .tc := ⟨.hbm, 101, rfl⟩
abbrev main_call0_v63 : Ref sig .tc := ⟨.hbm, 102, rfl⟩
abbrev main_call0_v64 : Ref sig .tc := ⟨.hbm, 103, rfl⟩
abbrev main_call0_v65 : Ref sig .tc := ⟨.hbm, 104, rfl⟩
abbrev main_call0_v66 : Ref sig .tc := ⟨.hbm, 105, rfl⟩
abbrev main_call0_v67 : Ref sig .tc := ⟨.hbm, 106, rfl⟩
abbrev main_call0_cst_17 : Ref sig .tc := ⟨.hbm, 107, rfl⟩
abbrev main_call0_v68 : Ref sig .tc := ⟨.hbm, 108, rfl⟩
abbrev main_call0_v69 : Ref sig .tc := ⟨.hbm, 109, rfl⟩
abbrev main_call0_v70 : Ref sig .tc := ⟨.hbm, 110, rfl⟩
abbrev main_call0_v71 : Ref sig .tc := ⟨.hbm, 111, rfl⟩
abbrev main_call0_c_18 : Ref sig .tc := ⟨.hbm, 112, rfl⟩
abbrev main_call0_v72 : Ref sig .tc := ⟨.hbm, 113, rfl⟩
abbrev main_call0_v73 : Ref sig .tc := ⟨.hbm, 114, rfl⟩
abbrev main_call0_c_19 : Ref sig .tc := ⟨.hbm, 115, rfl⟩
abbrev main_call0_v74 : Ref sig .tc := ⟨.hbm, 116, rfl⟩
abbrev main_call0_v75 : Ref sig .tc := ⟨.hbm, 117, rfl⟩
abbrev main_call0_v76 : Ref sig .tc := ⟨.hbm, 118, rfl⟩
abbrev main_call0_v77 : Ref sig .tc := ⟨.hbm, 119, rfl⟩
abbrev main_call0_v78 : Ref sig .tc := ⟨.hbm, 120, rfl⟩
abbrev main_call0_c_20 : Ref sig .tc := ⟨.hbm, 121, rfl⟩
abbrev main_call0_v79 : Ref sig .tc := ⟨.hbm, 122, rfl⟩
abbrev main_call0_v80 : Ref sig .tc := ⟨.hbm, 123, rfl⟩
abbrev main_call0_c_21 : Ref sig .tc := ⟨.hbm, 124, rfl⟩
abbrev main_call0_v81 : Ref sig .tc := ⟨.hbm, 125, rfl⟩
abbrev main_call0_v82 : Ref sig .tc := ⟨.hbm, 126, rfl⟩
abbrev main_call0_v83 : Ref sig .tc := ⟨.hbm, 127, rfl⟩
abbrev main_call0_v84 : Ref sig .tc := ⟨.hbm, 128, rfl⟩
abbrev main_call0_v85 : Ref sig .tc := ⟨.hbm, 129, rfl⟩
abbrev main_call0_v86 : Ref sig .tc := ⟨.hbm, 130, rfl⟩
abbrev main_call0_cst_22 : Ref sig .tc := ⟨.hbm, 131, rfl⟩
abbrev main_v0 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S_S20000 : S_.BroadcastsInDim S20000 (![] : Fin 0 → Fin S20000.rank)
  bcast_S20000_S20000x1_0 : S20000.BroadcastsInDim S20000x1 (![0] : Fin 1 → Fin S20000x1.rank)
  bitsLt_bf16_f32 : FTy.bits .bf16 < FTy.bits .f32
  bcast_S_S100000x128 : S_.BroadcastsInDim S100000x128 (![] : Fin 0 → Fin S100000x128.rank)
  bcast_S_S20000x128 : S_.BroadcastsInDim S20000x128 (![] : Fin 0 → Fin S20000x128.rank)
  bcast_S_S500000 : S_.BroadcastsInDim S500000 (![] : Fin 0 → Fin S500000.rank)
  bcast_S500000_S500000x1_0 : S500000.BroadcastsInDim S500000x1 (![0] : Fin 1 → Fin S500000x1.rank)
  reducesTo_S500000x128_S500000_d1 : S500000x128.ReducesTo [1] S500000
  h_S_ : 0 < S_.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  scatter_S100000_S1000000x1_S1000000_n_0_0_1_wf : ScatterDims.WF S100000 S1000000x1 S1000000 [] [0] [0] 1
  scatter_S20000_S1000000x1_S1000000_n_0_0_1_wf : ScatterDims.WF S20000 S1000000x1 S1000000 [] [0] [0] 1
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  gather_S20000x128_S500000x1_S500000x128_1_0_n_n_0_1_1128_wf : GatherDims.WF S20000x128 S500000x1 S500000x128 [1] [0] [] [0] [] 1 ![1, 128]
  gather_S100000x128_S500000x1_S500000x128_1_0_n_n_0_1_1128_wf : GatherDims.WF S100000x128 S500000x1 S500000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S20000x128.size a
  hwx1_0 : ∀ i : grid1.Coords, EltTy.bits .f32 = 32 ∨ (Rect.block (s := S20000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S20000x1.size a
  hwx1_1 : ∀ i : grid1.Coords, EltTy.bits .f32 = 32 ∨ (Rect.block (s := S20000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S20000x128.size a
  hwx1_2 : ∀ i : grid1.Coords, EltTy.bits .f32 = 32 ∨ (Rect.block (s := S20000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S20000x128.size a
  hwx1_6 : ∀ i : grid1.Coords, EltTy.bits .bf16 = 32 ∨ (Rect.block (s := S20000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .bf16 = 32 ∨ (Rect.block (s := S100000x128) S5000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S20000x128.size a
  hwx3_0 : ∀ i : grid3.Coords, EltTy.bits .f32 = 32 ∨ (Rect.block (s := S20000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S20000x1.size a
  hwx3_1 : ∀ i : grid3.Coords, EltTy.bits .f32 = 32 ∨ (Rect.block (s := S20000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S20000x128.size a
  hwx3_2 : ∀ i : grid3.Coords, EltTy.bits .bf16 = 32 ∨ (Rect.block (s := S20000x128) S5000x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .bf16 = 32 ∨ (Rect.block (s := S128x128) S128x128.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S20000x128.size a
  hwx3_6 : ∀ i : grid3.Coords, EltTy.bits .f32 = 32 ∨ (Rect.block (s := S20000x128) S5000x128.size (cc3_transform_6 i) (hinb3_6 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_call0_v35) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v19) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v36) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v20) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v21) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v47) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_call0_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v8) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v36) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v22) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v23) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v59) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_call0_v70) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v47) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v24) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg18) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v25) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v71) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S20000x128 : Shape := ⟨2, ![20000, 128]⟩
abbrev S100000x128 : Shape := ⟨2, ![100000, 128]⟩
abbrev S1000000 : Shape := ⟨1, ![1000000]⟩
abbrev S500000 : Shape := ⟨1, ![500000]⟩
abbrev S128x128 : Shape := ⟨2, ![128, 128]⟩
abbrev S128 : Shape := ⟨1, ![128]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128 : Shape := ⟨2, ![1, 128]⟩
abbrev S20000 : Shape := ⟨1, ![20000]⟩
abbrev S20000x1 : Shape := ⟨2, ![20000, 1]⟩
abbrev S500000x1 : Shape := ⟨2, ![500000, 1]⟩
abbrev S500000x128 : Shape := ⟨2, ![500000, 128]⟩

abbrev nBuf : Space → Nat
  | .hbm => 171
  | .vmem => 0
  | .smem => 0
  | _ => 0

abbrev hbmTy0_0 (i : Nat) : BufTy := match i % 128 with
  | 0 => ⟨S20000x128, .f32⟩
  | 1 => ⟨S100000x128, .f32⟩
  | 2 => ⟨S1000000, .i32⟩
  | 3 => ⟨S1000000, .i32⟩
  | 4 => ⟨S1000000, .i32⟩
  | 5 => ⟨S1000000, .i32⟩
  | 6 => ⟨S500000, .i32⟩
  | 7 => ⟨S500000, .i32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x128, .f32⟩
  | 29 => ⟨S_, .f32⟩
  | 30 => ⟨S100000x128, .f32⟩
  | 31 => ⟨S1000000x1, .i32⟩
  | 32 => ⟨S100000x128, .f32⟩
  | 33 => ⟨S_, .f32⟩
  | 34 => ⟨S1000000, .f32⟩
  | 35 => ⟨S_, .f32⟩
  | 36 => ⟨S100000, .f32⟩
  | 37 => ⟨S1000000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S1000000x128, .f32⟩
  | 63 => ⟨S_, .f32⟩
  | 64 => ⟨S20000x128, .f32⟩
  | 65 => ⟨S1000000x1, .i32⟩
  | 66 => ⟨S20000x128, .f32⟩
  | 67 => ⟨S_, .f32⟩
  | 68 => ⟨S1000000, .f32⟩
  | 69 => ⟨S_, .f32⟩
  | 70 => ⟨S20000, .f32⟩
  | 71 => ⟨S1000000x1, .i32⟩
  | 72 => ⟨S20000, .f32⟩
  | 73 => ⟨S_, .f32⟩
  | 74 => ⟨S20000, .f32⟩
  | 75 => ⟨S20000, .f32⟩
  | 76 => ⟨S20000x1, .f32⟩
  | 77 => ⟨S20000x128, .f32⟩
  | 78 => ⟨S20000x128, .f32⟩
  | 79 => ⟨S20000x128, .f32⟩
  | 80 => ⟨S1x128, .f32⟩
  | 81 => ⟨S20000x128, .f32⟩
  | 82 => ⟨S20000x128, .f32⟩
  | 83 => ⟨S20000x128, .f32⟩
  | 84 => ⟨S20000x128, .f32⟩
  | 85 => ⟨S_, .f32⟩
  | 86 => ⟨S20000x128, .f32⟩
  | 87 => ⟨S20000x128, .f32⟩
  | 88 => ⟨S_, .i32⟩
  | 89 => ⟨S1000000, .i32⟩
  | 90 => ⟨S1000000, .i1⟩
  | 91 => ⟨S_, .i32⟩
  | 92 => ⟨S1000000, .i32⟩
  | 93 => ⟨S1000000, .i32⟩
  | 94 => ⟨S1000000, .i32⟩
  | 95 => ⟨S1000000x1, .i32⟩
  | 96 => ⟨S1000000x128, .f32⟩
  | 97 => ⟨S_, .f32⟩
  | 98 => ⟨S100000x128, .f32⟩
  | 99 => ⟨S1000000x1, .i32⟩
  | 100 => ⟨S100000x128, .f32⟩
  | 101 => ⟨S_, .f32⟩
  | 102 => ⟨S1000000, .f32⟩
  | 103 => ⟨S_, .f32⟩
  | 104 => ⟨S100000, .f32⟩
  | 105 => ⟨S1000000x1, .i32⟩
  | 106 => ⟨S100000, .f32⟩
  | 107 => ⟨S_, .f32⟩
  | 108 => ⟨S100000, .f32⟩
  | 109 => ⟨S100000, .f32⟩
  | 110 => ⟨S100000x1, .f32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S100000x128, .f32⟩
  | 118 => ⟨S100000x128, .f32⟩
  | 119 => ⟨S_, .i32⟩
  | 120 => ⟨S1000000, .i32⟩
  | 121 => ⟨S1000000, .i1⟩
  | 122 => ⟨S_, .i32⟩
  | 123 => ⟨S1000000, .i32⟩
  | 124 => ⟨S1000000, .i32⟩
  | 125 => ⟨S1000000, .i32⟩
  | 126 => ⟨S1000000x1, .i32⟩
  | 127 => ⟨S1000000x128, .f32⟩
  | _ => ⟨S20000x128, .f32⟩

abbrev hbmTy0_1 (i : Nat) : BufTy := match i % 128 with
  | 0 => ⟨S_, .f32⟩
  | 1 => ⟨S20000x128, .f32⟩
  | 2 => ⟨S1000000x1, .i32⟩
  | 3 => ⟨S20000x128, .f32⟩
  | 4 => ⟨S_, .f32⟩
  | 5 => ⟨S1000000, .f32⟩
  | 6 => ⟨S_, .f32⟩
  | 7 => ⟨S20000, .f32⟩
  | 8 => ⟨S1000000x1, .i32⟩
  | 9 => ⟨S20000, .f32⟩
  | 10 => ⟨S_, .f32⟩
  | 11 => ⟨S20000, .f32⟩
  | 12 => ⟨S20000, .f32⟩
  | 13 => ⟨S20000x1, .f32⟩
  | 14 => ⟨S20000x128, .f32⟩
  | 15 => ⟨S20000x128, .f32⟩
  | 16 => ⟨S20000x128, .f32⟩
  | 17 => ⟨S1x128, .f32⟩
  | 18 => ⟨S20000x128, .f32⟩
  | 19 => ⟨S20000x128, .f32⟩
  | 20 => ⟨S20000x128, .f32⟩
  | 21 => ⟨S20000x128, .f32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x128, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x128, .f32⟩
  | 40 => ⟨S500000x128, .f32⟩
  | 41 => ⟨S_, .f32⟩
  | 42 => ⟨S500000, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_call0_cst : Ref sig .tc := ⟨.hbm, 51, rfl⟩
abbrev main_call0_v0 : Ref sig .tc := ⟨.hbm, 52, rfl⟩
abbrev main_v25 : Ref sig .tc := ⟨.hbm, 53, rfl⟩
abbrev main_c_4 : Ref sig .tc := ⟨.hbm, 54, rfl⟩
abbrev main_v26 : Ref sig .tc := ⟨.hbm, 55, rfl⟩
abbrev main_v27 : Ref sig .tc := ⟨.hbm, 56, rfl⟩
abbrev main_c_5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_6 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_7 : Ref sig .tc := ⟨.hbm, 67, rfl⟩
abbrev main_v36 : Ref sig .tc := ⟨.hbm, 68, rfl⟩
abbrev main_cst_8 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_9 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_call1_cst : Ref sig .tc := ⟨.hbm, 85, rfl⟩
abbrev main_call1_v0 : Ref sig .tc := ⟨.hbm, 86, rfl⟩
abbrev main_v51 : Ref sig .tc := ⟨.hbm, 87, rfl⟩
abbrev main_c_10 : Ref sig .tc := ⟨.hbm, 88, rfl⟩
abbrev main_v52 : Ref sig .tc := ⟨.hbm, 89, rfl⟩
abbrev main_v53 : Ref sig .tc := ⟨.hbm, 90, rfl⟩
abbrev main_c_11 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_12 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_13 : Ref sig .tc := ⟨.hbm, 101, rfl⟩
abbrev main_v62 : Ref sig .tc := ⟨.hbm, 102, rfl⟩
abbrev main_cst_14 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_15 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_c_16 : Ref sig .tc := ⟨.hbm, 119, rfl⟩
abbrev main_v77 : Ref sig .tc := ⟨.hbm, 120, rfl⟩
abbrev main_v78 : Ref sig .tc := ⟨.hbm, 121, rfl⟩
abbrev main_c_17 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_18 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_19 : Ref sig .tc := ⟨.hbm, 132, rfl⟩
abbrev main_v87 : Ref sig .tc := ⟨.hbm, 133, rfl⟩
abbrev main_cst_20 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_21 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_c_22 : Ref sig .tc := ⟨.hbm, 150, rfl⟩
abbrev main_v102 : Ref sig .tc := ⟨.hbm, 151, rfl⟩
abbrev main_v103 : Ref sig .tc := ⟨.hbm, 152, rfl⟩
abbrev main_c_23 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_c_24 : Ref sig .tc := ⟨.hbm, 159, rfl⟩
abbrev main_v109 : Ref sig .tc := ⟨.hbm, 160, rfl⟩
abbrev main_v110 : Ref sig .tc := ⟨.hbm, 161, rfl⟩
abbrev main_c_25 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_26 : Ref sig .tc := ⟨.hbm, 169, rfl⟩
abbrev main_v117 : Ref sig .tc := ⟨.hbm, 170, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  bcast_S_S500000 : S_.BroadcastsInDim S500000 (![] : Fin 0 → Fin S500000.rank)
  bcast_S500000_S500000x1_0 : S500000.BroadcastsInDim S500000x1 (![0] : Fin 1 → Fin S500000x1.rank)
  reducesTo_S500000x128_S500000_d1 : S500000x128.ReducesTo [1] S500000
  h_S_ : 0 < S_.numel
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  scatter_S20000_S1000000x1_S1000000_n_0_0_1_wf : ScatterDims.WF S20000 S1000000x1 S1000000 [] [0] [0] 1
  dot_S20000x128_S128x128_S20000x128_1_0_0_1_n_n_wf : DotDims.WF S20000x128 S128x128 S20000x128 [1] [0] [0] [1] [] []
  gather_S20000x128_S500000x1_S500000x128_1_0_n_n_0_1_1128_wf : GatherDims.WF S20000x128 S500000x1 S500000x128 [1] [0] [] [0] [] 1 ![1, 128]
  gather_S100000x128_S500000x1_S500000x128_1_0_n_n_0_1_1128_wf : GatherDims.WF S100000x128 S500000x1 S500000x128 [1] [0] [] [0] [] 1 ![1, 128]

variable [Facts₀]

def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf

class Facts : Prop extends Facts₀ where

variable [Facts]
-- ==== Proof.Combine.lean ====
/-
  One SAGE combine, entry by entry, on the extended reals.

  Row `p` of the aggregated messages is scaled by the row's factor, multiplied into the left weight, the bias is added,
  and row `p` of the destination's own features times the right weight is added:
  `out p q = (∑ k, (agg p k · s p) · Wl k q) + b q + ∑ k, xd p k · Wr k q`.
  The reference divides the aggregate by the clamped in-degree `c p = max (cnt p) 1`; the kernel multiplies by the
  reciprocal `1 / c p` computed once per relation. Since `c p ≥ 1` is never zero, `a / c = a · (1 / c)` on every
  extended real `a` (both are `a · c⁻¹`), so the two entries are one number.
-/
import Idealize.ShloMosaic.PureOps.Ideal
import Idealize.ShloMosaic.PureOps.Ideal.Laws
import Idealize.ShloMosaic.Lib.ValueIdx

noncomputable section

namespace Cert.Combine

open Idealize.ShloMosaic Idealize.ShloMosaic.ValueIdx

/-- The word of the float `1.0`. -/
abbrev oneW : BitVec 32 := 0x3F800000#32

/-- The float word `1.0` denotes the real one. -/
theorem ofBits_one : Ideal.ofBits .f32 oneW = (1 : EReal) := by
  simp [oneW, Ideal.ofBits, Ideal.ieee]
  rw [← EReal.coe_mul]
  norm_num

/-- Entry `(p, q)` of a combine whose row factor is the column `s`. -/
def entryMul {n : Nat} (agg : (⟨2, ![n, 128]⟩ : Shape).Idx → EReal) (s : (⟨2, ![n, 1]⟩ : Shape).Idx → EReal)
    (xd : (⟨2, ![n, 128]⟩ : Shape).Idx → EReal) (wl : (⟨2, ![128, 128]⟩ : Shape).Idx → EReal)
    (b : (⟨1, ![128]⟩ : Shape).Idx → EReal) (wr : (⟨2, ![128, 128]⟩ : Shape).Idx → EReal) (p : Fin n) (q : Fin 128) : EReal :=
  (∑ k : Fin 128, (agg (ix2 p k) * s (ix2 p (0 : Fin 1))) * wl (ix2 k q)) + b (ix1 q) + ∑ k : Fin 128, xd (ix2 p k) * wr (ix2 k q)

/-- Entry `(p, q)` of a combine whose aggregate is divided by the row's divisor `c p`. -/
def entryDiv {n : Nat} (agg : (⟨2, ![n, 128]⟩ : Shape).Idx → EReal) (c : (⟨1, ![n]⟩ : Shape).Idx → EReal)
    (xd : (⟨2, ![n, 128]⟩ : Shape).Idx → EReal) (wl : (⟨2, ![128, 128]⟩ : Shape).Idx → EReal)
    (b : (⟨1, ![128]⟩ : Shape).Idx → EReal) (wr : (⟨2, ![128, 128]⟩ : Shape).Idx → EReal) (p : Fin n) (q : Fin 128) : EReal :=
  (∑ k : Fin 128, Ideal.div (agg (ix2 p k)) (c (ix1 p)) * wl (ix2 k q)) + b (ix1 q) + ∑ k : Fin 128, xd (ix2 p k) * wr (ix2 k q)

/-- A maximum with one is not zero. -/
theorem max_one_ne_zero (x : EReal) : max x (Ideal.ofBits .f32 oneW) ≠ 0 := by
  rw [ofBits_one]
  intro h
  have h1 : (1 : EReal) ≤ max x 1 := le_max_right _ _
  rw [h] at h1
  exact absurd h1 (not_le.mpr (by exact_mod_cast (zero_lt_one : (0 : ℝ) < 1)))

/-- Off zero, dividing by `c` is multiplying by `1 / c`. -/
theorem mul_div_one (a c : EReal) (hc : c ≠ 0) : a * Ideal.div (Ideal.ofBits .f32 oneW) c = Ideal.div a c := by
  unfold Ideal.div
  rw [if_neg hc, if_neg hc, ofBits_one, one_mul]

/-- The two combines agree when the factor is the reciprocal of the clamped count. -/
theorem entryMul_eq_entryDiv {n : Nat} (agg : (⟨2, ![n, 128]⟩ : Shape).Idx → EReal) (s : (⟨2, ![n, 1]⟩ : Shape).Idx → EReal)
    (cnt : (⟨1, ![n]⟩ : Shape).Idx → EReal)
    (xd : (⟨2, ![n, 128]⟩ : Shape).Idx → EReal) (wl : (⟨2, ![128, 128]⟩ : Shape).Idx → EReal)
    (b : (⟨1, ![128]⟩ : Shape).Idx → EReal) (wr : (⟨2, ![128, 128]⟩ : Shape).Idx → EReal) (p : Fin n) (q : Fin 128)
    (hs : s (ix2 p (0 : Fin 1)) = Ideal.div (Ideal.ofBits .f32 oneW) (max (cnt (ix1 p)) (Ideal.ofBits .f32 oneW))) :
    entryMul agg s xd wl b wr p q = entryDiv agg (fun j => max (cnt j) (Ideal.ofBits .f32 oneW)) xd wl b wr p q := by
  unfold entryMul entryDiv
  rw [hs]
  simp only [mul_div_one _ _ (max_one_ne_zero _)]

end Cert.Combine

end
-- ==== Proof.Region2.lean ====
import proofs.«428911_j46093589020843_3_alg».proof.Proof.Gen.KernelIdeal.Frame
import proofs.«428911_j46093589020843_3_alg».proof.Proof.Combine
import Idealize.ShloMosaic.Lib.ValueIdx
import Idealize.ShloMosaic.Lib.Pipeline.Value
import Idealize.ShloMosaic.PureOps.Ideal.Laws

set_option maxRecDepth 16384

noncomputable section

namespace Cert.KernelIdeal.Region2

open Idealize.ShloMosaic Idealize.ShloMosaic.TcCoe Idealize.ShloMosaic.ValueIdx
open Idealize.ShloMosaic.Pipeline (Dat Cfg Window)
open Cert.KernelIdeal Cert.KernelIdeal.Gen

/-- The contraction of the block's matrix product runs over one axis of 128 entries: at output entry `(p, q)` the left
    operand is read at `(p, k)` and the right at `(k, q)`. -/
theorem lhs_ax0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_ax1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
theorem rhs_ax0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
theorem rhs_ax1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, read at an entry: the plain sum over the 128 contracted positions. -/
theorem block_matmul_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- The row factor laid along the 128 columns, read at an entry. -/
theorem scale_apply (x1 : Vec Ideal S5000x1 .f32) (p : Fin 5000) (k : Fin 128) :
    broadcastTo S5000x128 x1 broadcasts_S5000x1_S5000x128 (ix2 p k) = x1 (ix2 p (0 : Fin 1)) :=
  broadcastTo_apply x1 broadcasts_S5000x1_S5000x128 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-- The bias laid along the 5000 rows, read at an entry. -/
theorem bias_apply (x4 : Vec Ideal S128 .f32) (p : Fin 5000) (q : Fin 128) :
    broadcastTo S5000x128 (shapeCast S1x128 x4 shapeCasts_S128_S1x128) broadcasts_S1x128_S5000x128 (ix2 p q) = x4 (ix1 q) := by
  rw [broadcastTo_apply (shapeCast S1x128 x4 shapeCasts_S128_S1x128) broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact shapeCast_apply x4 shapeCasts_S128_S1x128 (ix2 (0 : Fin 1) q) (ix1 q) (by
    rw [Shape.rowMajor_val_two, Shape.rowMajor_val_one]
    show q.val = 0 * 128 + q.val
    omega)

/-- The body's stored value at entry `(p, q)` of the block: the combine's entry. -/
theorem pay_apply (x0 : Vec Ideal S5000x128 .f32) (x1 : Vec Ideal S5000x1 .f32) (x2 : Vec Ideal S5000x128 .bf16)
    (x3 : Vec Ideal S128x128 .bf16) (x4 : Vec Ideal S128 .f32) (x5 : Vec Ideal S128x128 .bf16) (p : Fin 5000) (q : Fin 128) :
    k2_pay1 x0 x1 x2 x3 x4 x5 (ix2 p q)
      = Combine.entryMul (n := 5000) x0 x1 x2 x3 x4 x5 p q := by
  unfold k2_pay1
  rw [shapeCast_self, shapeCast_self, shapeCast_self, shapeCast_self, shapeCast_self]
  show ((matmul (F := Ideal) dot_S5000x128_S128x128_S5000x128_1_0_0_1_n_n none (truncf (F := Ideal) .bf16 (mulf x0 (broadcastTo S5000x128 x1 broadcasts_S5000x1_S5000x128)) bitsLt_bf16_f32) x3 (constant S5000x128 .f32 0x00000000#32) (ix2 p q)
      + broadcastTo S5000x128 (shapeCast S1x128 x4 shapeCasts_S128_S1x128) broadcasts_S1x128_S5000x128 (ix2 p q))
      + matmul (F := Ideal) dot_S5000x128_S128x128_S5000x128_1_0_0_1_n_n none x2 x5 (constant S5000x128 .f32 0x00000000#32) (ix2 p q)) = _
  rw [block_matmul_apply, block_matmul_apply, bias_apply]
  have e1 : ∀ k : Fin 128, (truncf (F := Ideal) .bf16 (mulf x0 (broadcastTo S5000x128 x1 broadcasts_S5000x1_S5000x128)) bitsLt_bf16_f32) (ix2 p k) = x0 (ix2 p k) * x1 (ix2 p (0 : Fin 1)) := fun k => by
    show x0 (ix2 p k) * broadcastTo S5000x128 x1 broadcasts_S5000x1_S5000x128 (ix2 p k) = _
    rw [scale_apply]
  simp only [e1]
  rfl

/-! ## From the blocks to the array -/

theorem hz : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- Row `p` of grid point `t`'s block is row `5000 · t + p` of the array. -/
def rowOf (t : Fin cfg2.N) (p : Fin 5000) : Fin 100000 := ⟨t.val * 5000 + p.val, by
  have ht : t.val < 20 := t.isLt
  have hp := p.isLt
  omega⟩

/-- What the region leaves in its output array: at every entry the combine of the arrays the region finds. -/
def G (c : Dev nD) : S100000x128.Idx → EReal := fun i =>
  Combine.entryMul (n := 100000) (V c main_call0_v58) (V c main_call0_v8) (V c main_call0_v36) (V c main_call0_v22)
    (V c main_arg15) (V c main_call0_v23) (i 0) (i 1)

/-- The printed index maps, decided over the grid: the three row-blocked inputs and the output take block `t` of the rows,
    the weights and the bias their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem read0 (c : Dev nD) (t : Fin cfg2.N) (p : Fin 5000) (k : Fin 128) :
    iblk2 V c 0 t (ix2 p k) = V c main_call0_v58 (ix2 (rowOf t p) k) := by
  show V c main_call0_v58 (((cfg2.win 0).blk t).view.emb (ix2 p k)) = V c main_call0_v58 (ix2 (rowOf t p) k)
  refine congrArg _ (funext fun a => Fin.ext ?_)
  obtain ⟨e0, e1, -⟩ := idx_facts t
  match a with
  | ⟨0, _⟩ => show win2_0.index t (0 : Fin 2) * 5000 + 1 * p.val = t.val * 5000 + p.val; omega
  | ⟨1, _⟩ => show win2_0.index t (1 : Fin 2) * 128 + 1 * k.val = k.val; omega

theorem read1 (c : Dev nD) (t : Fin cfg2.N) (p : Fin 5000) :
    iblk2 V c 1 t (ix2 p (0 : Fin 1)) = V c main_call0_v8 (ix2 (rowOf t p) (0 : Fin 1)) := by
  show V c main_call0_v8 (((cfg2.win 1).blk t).view.emb (ix2 p (0 : Fin 1))) = V c main_call0_v8 (ix2 (rowOf t p) (0 : Fin 1))
  refine congrArg _ (funext fun a => Fin.ext ?_)
  obtain ⟨-, -, e0, e1, -⟩ := idx_facts t
  match a with
  | ⟨0, _⟩ => show win2_1.index t (0 : Fin 2) * 5000 + 1 * p.val = t.val * 5000 + p.val; omega
  | ⟨1, _⟩ => show win2_1.index t (1 : Fin 2) * 1 + 1 * 0 = 0; omega

theorem read2 (c : Dev nD) (t : Fin cfg2.N) (p : Fin 5000) (k : Fin 128) :
    iblk2 V c 2 t (ix2 p k) = V c main_call0_v36 (ix2 (rowOf t p) k) := by
  show V c main_call0_v36 (((cfg2.win 2).blk t).view.emb (ix2 p k)) = V c main_call0_v36 (ix2 (rowOf t p) k)
  refine congrArg _ (funext fun a => Fin.ext ?_)
  obtain ⟨-, -, -, -, e0, e1, -⟩ := idx_facts t
  match a with
  | ⟨0, _⟩ => show win2_2.index t (0 : Fin 2) * 5000 + 1 * p.val = t.val * 5000 + p.val; omega
  | ⟨1, _⟩ => show win2_2.index t (1 : Fin 2) * 128 + 1 * k.val = k.val; omega

theorem read3 (c : Dev nD) (t : Fin cfg2.N) (k q : Fin 128) :
    iblk2 V c 3 t (ix2 k q) = V c main_call0_v22 (ix2 k q) := by
  show V c main_call0_v22 (((cfg2.win 3).blk t).view.emb (ix2 k q)) = V c main_call0_v22 (ix2 k q)
  refine congrArg _ (funext fun a => Fin.ext ?_)
  obtain ⟨-, -, -, -, -, -, e0, e1, -⟩ := idx_facts t
  match a with
  | ⟨0, _⟩ => show win2_3.index t (0 : Fin 2) * 128 + 1 * k.val = k.val; omega
  | ⟨1, _⟩ => show win2_3.index t (1 : Fin 2) * 128 + 1 * q.val = q.val; omega

theorem read4 (c : Dev nD) (t : Fin cfg2.N) (q : Fin 128) :
    iblk2 V c 4 t (ix1 q) = V c main_arg15 (ix1 q) := by
  show V c main_arg15 (((cfg2.win 4).blk t).view.emb (ix1 q)) = V c main_arg15 (ix1 q)
  refine congrArg _ (funext fun a => Fin.ext ?_)
  obtain ⟨-, -, -, -, -, -, -, -, e0, -⟩ := idx_facts t
  match a with
  | ⟨0, _⟩ => show win2_4.index t (0 : Fin 1) * 128 + 1 * q.val = q.val; omega

theorem read5 (c : Dev nD) (t : Fin cfg2.N) (k q : Fin 128) :
    iblk2 V c 5 t (ix2 k q) = V c main_call0_v23 (ix2 k q) := by
  show V c main_call0_v23 (((cfg2.win 5).blk t).view.emb (ix2 k q)) = V c main_call0_v23 (ix2 k q)
  refine congrArg _ (funext fun a => Fin.ext ?_)
  obtain ⟨-, -, -, -, -, -, -, -, -, e0, e1, -⟩ := idx_facts t
  match a with
  | ⟨0, _⟩ => show win2_5.index t (0 : Fin 2) * 128 + 1 * k.val = k.val; omega
  | ⟨1, _⟩ => show win2_5.index t (1 : Fin 2) * 128 + 1 * q.val = q.val; omega

/-- Entry `(p, q)` of the output's block `t` sits at `(5000 · t + p, q)` of the array. -/
theorem emb6 (t : Fin cfg2.N) (p : Fin 5000) (q : Fin 128) :
    ((cfg2.win 6).blk t).view.emb (ix2 p q) = ix2 (rowOf t p) q := by
  refine funext fun a => Fin.ext ?_
  obtain ⟨-, -, -, -, -, -, -, -, -, -, -, e0, e1⟩ := idx_facts t
  match a with
  | ⟨0, _⟩ => show win2_6.index t (0 : Fin 2) * 5000 + 1 * p.val = t.val * 5000 + p.val; omega
  | ⟨1, _⟩ => show win2_6.index t (1 : Fin 2) * 128 + 1 * q.val = q.val; omega

/-- What grid point `t` writes back is block `t` of `G`. -/
theorem flushed_eq (c : Dev nD) (t : Fin cfg2.N) :
    (dat2 (F := Ideal) V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz, View.ld_unit_zero (S := S128x128) hz, View.ld_unit_zero (S := S128) hz1]
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (iblk2 V c 3 t) (iblk2 V c 4 t) (iblk2 V c 5 t) (ix2 p q)
    = G V c (((cfg2.win 6).blk t).view.emb (ix2 p q))
  refine (pay_apply (iblk2 V c 0 t) (iblk2 V c 1 t) (iblk2 V c 2 t) (iblk2 V c 3 t) (iblk2 V c 4 t) (iblk2 V c 5 t) p q).trans ?_
  rw [emb6]
  unfold G Combine.entryMul
  simp only [read0 V c t, read1 V c t, read2 V c t, read3 V c t, read4 V c t, read5 V c t]

/-- An entry of the array is in grid point `t`'s block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_call0_v59).slice (win2_6.rect t)).set ↔ _
  rw [View.set_slice_whole, Rect.mem_set_unit]
  exact Iff.rfl

/-- Every entry of the array lies in the block of the grid point that owns its row: row `r` is in block `r / 5000`. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have ht : (i 0).val / 5000 < 20 := by omega
  obtain ⟨-, -, -, -, -, -, -, -, -, -, -, e0, e1⟩ := idx_facts ⟨(i 0).val / 5000, ht⟩
  refine ⟨⟨(i 0).val / 5000, ht⟩, flush2_6 _, ?_⟩
  rw [mem_blk]
  intro a
  match a with
  | ⟨0, _⟩ =>
    show win2_6.index ⟨(i 0).val / 5000, ht⟩ (0 : Fin 2) * 5000 ≤ (i 0).val ∧ (i 0).val < win2_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win2_6.index ⟨(i 0).val / 5000, ht⟩ (1 : Fin 2) * 128 ≤ (i 1).val ∧ (i 1).val < win2_6.index ⟨(i 0).val / 5000, ht⟩ (1 : Fin 2) * 128 + 128
    rw [e1]
    omega

/-- The output array when the region is left: the combine of the arrays the region found, entry by entry. -/
theorem value (c : Dev nD) : (dat2 (F := Ideal) V c).arrAt 6 cfg2.N = G V c :=
  (dat2 V c).arrAt_eq_of_cover 6 (G V c) (fun t _ => flushed_eq V c t) (cover)

end Cert.KernelIdeal.Region2

end
-- ==== Proof.Region3.lean ====
import proofs.«428911_j46093589020843_3_alg».proof.Proof.Gen.KernelIdeal.Frame
import proofs.«428911_j46093589020843_3_alg».proof.Proof.Combine
import Idealize.ShloMosaic.Lib.ValueIdx
import Idealize.ShloMosaic.Lib.Pipeline.Value
import Idealize.ShloMosaic.PureOps.Ideal.Laws

set_option maxRecDepth 16384

noncomputable section

namespace Cert.KernelIdeal.Region3

open Idealize.ShloMosaic Idealize.ShloMosaic.TcCoe Idealize.ShloMosaic.ValueIdx
open Idealize.ShloMosaic.Pipeline (Dat Cfg Window)
open Cert.KernelIdeal Cert.KernelIdeal.Gen

/-- The contraction of the block's matrix product runs over one axis of 128 entries: at output entry `(p, q)` the left
    operand is read at `(p, k)` and the right at `(k, q)`. -/
theorem lhs_ax0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_ax1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
theorem rhs_ax0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
theorem rhs_ax1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, read at an entry: the plain sum over the 128 contracted positions. -/
theorem block_matmul_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- The row factor laid along the 128 columns, read at an entry. -/
theorem scale_apply (x1 : Vec Ideal S5000x1 .f32) (p : Fin 5000) (k : Fin 128) :
    broadcastTo S5000x128 x1 broadcasts_S5000x1_S5000x128 (ix2 p k) = x1 (ix2 p (0 : Fin 1)) :=
  broadcastTo_apply x1 broadcasts_S5000x1_S5000x128 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-- The bias laid along the 5000 rows, read at an entry. -/
theorem bias_apply (x4 : Vec Ideal S128 .f32) (p : Fin 5000) (q : Fin 128) :
    broadcastTo S5000x128 (shapeCast S1x128 x4 shapeCasts_S128_S1x128) broadcasts_S1x128_S5000x128 (ix2 p q) = x4 (ix1 q) := by
  rw [broadcastTo_apply (shapeCast S1x128 x4 shapeCasts_S128_S1x128) broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact shapeCast_apply x4 shapeCasts_S128_S1x128 (ix2 (0 : Fin 1) q) (ix1 q) (by
    rw [Shape.rowMajor_val_two, Shape.rowMajor_val_one]
    show q.val = 0 * 128 + q.val
    omega)

/-- The body's stored value at entry `(p, q)` of the block: the combine's entry. -/
theorem pay_apply (x0 : Vec Ideal S5000x128 .f32) (x1 : Vec Ideal S5000x1 .f32) (x2 : Vec Ideal S5000x128 .bf16)
    (x3 : Vec Ideal S128x128 .bf16) (x4 : Vec Ideal S128 .f32) (x5 : Vec Ideal S128x128 .bf16) (p : Fin 5000) (q : Fin 128) :
    k3_pay1 x0 x1 x2 x3 x4 x5 (ix2 p q)
      = Combine.entryMul (n := 5000) x0 x1 x2 x3 x4 x5 p q := by
  unfold k3_pay1
  rw [shapeCast_self, shapeCast_self, shapeCast_self, shapeCast_self, shapeCast_self]
  show ((matmul (F := Ideal) dot_S5000x128_S128x128_S5000x128_1_0_0_1_n_n none (truncf (F := Ideal) .bf16 (mulf x0 (broadcastTo S5000x128 x1 broadcasts_S5000x1_S5000x128)) bitsLt_bf16_f32) x3 (constant S5000x128 .f32 0x00000000#32) (ix2 p q)
      + broadcastTo S5000x128 (shapeCast S1x128 x4 shapeCasts_S128_S1x128) broadcasts_S1x128_S5000x128 (ix2 p q))
      + matmul (F := Ideal) dot_S5000x128_S128x128_S5000x128_1_0_0_1_n_n none x2 x5 (constant S5000x128 .f32 0x00000000#32) (ix2 p q)) = _
  rw [block_matmul_apply, block_matmul_apply, bias_apply]
  have e1 : ∀ k : Fin 128, (truncf (F := Ideal) .bf16 (mulf x0 (broadcastTo S5000x128 x1 broadcasts_S5000x1_S5000x128)) bitsLt_bf16_f32) (ix2 p k) = x0 (ix2 p k) * x1 (ix2 p (0 : Fin 1)) := fun k => by
    show x0 (ix2 p k) * broadcastTo S5000x128 x1 broadcasts_S5000x1_S5000x128 (ix2 p k) = _
    rw [scale_apply]
  simp only [e1]
  rfl

/-! ## From the blocks to the array -/

theorem hz : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- Row `p` of grid point `t`'s block is row `5000 · t + p` of the array. -/
def rowOf (t : Fin cfg3.N) (p : Fin 5000) : Fin 20000 := ⟨t.val * 5000 + p.val, by
  have ht : t.val < 4 := t.isLt
  have hp := p.isLt
  omega⟩

/-- What the region leaves in its output array: at every entry the combine of the arrays the region finds. -/
def G (c : Dev nD) : S20000x128.Idx → EReal := fun i =>
  Combine.entryMul (n := 20000) (V c main_call0_v70) (V c main_call0_v17) (V c main_call0_v47) (V c main_call0_v24)
    (V c main_arg18) (V c main_call0_v25) (i 0) (i 1)

/-- The printed index maps, decided over the grid: the three row-blocked inputs and the output take block `t` of the rows,
    the weights and the bias their one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem read0 (c : Dev nD) (t : Fin cfg3.N) (p : Fin 5000) (k : Fin 128) :
    iblk3 V c 0 t (ix2 p k) = V c main_call0_v70 (ix2 (rowOf t p) k) := by
  show V c main_call0_v70 (((cfg3.win 0).blk t).view.emb (ix2 p k)) = V c main_call0_v70 (ix2 (rowOf t p) k)
  refine congrArg _ (funext fun a => Fin.ext ?_)
  obtain ⟨e0, e1, -⟩ := idx_facts t
  match a with
  | ⟨0, _⟩ => show win3_0.index t (0 : Fin 2) * 5000 + 1 * p.val = t.val * 5000 + p.val; omega
  | ⟨1, _⟩ => show win3_0.index t (1 : Fin 2) * 128 + 1 * k.val = k.val; omega

theorem read1 (c : Dev nD) (t : Fin cfg3.N) (p : Fin 5000) :
    iblk3 V c 1 t (ix2 p (0 : Fin 1)) = V c main_call0_v17 (ix2 (rowOf t p) (0 : Fin 1)) := by
  show V c main_call0_v17 (((cfg3.win 1).blk t).view.emb (ix2 p (0 : Fin 1))) = V c main_call0_v17 (ix2 (rowOf t p) (0 : Fin 1))
  refine congrArg _ (funext fun a => Fin.ext ?_)
  obtain ⟨-, -, e0, e1, -⟩ := idx_facts t
  match a with
  | ⟨0, _⟩ => show win3_1.index t (0 : Fin 2) * 5000 + 1 * p.val = t.val * 5000 + p.val; omega
  | ⟨1, _⟩ => show win3_1.index t (1 : Fin 2) * 1 + 1 * 0 = 0; omega

theorem read2 (c : Dev nD) (t : Fin cfg3.N) (p : Fin 5000) (k : Fin 128) :
    iblk3 V c 2 t (ix2 p k) = V c main_call0_v47 (ix2 (rowOf t p) k) := by
  show V c main_call0_v47 (((cfg3.win 2).blk t).view.emb (ix2 p k)) = V c main_call0_v47 (ix2 (rowOf t p) k)
  refine congrArg _ (funext fun a => Fin.ext ?_)
  obtain ⟨-, -, -, -, e0, e1, -⟩ := idx_facts t
  match a with
  | ⟨0, _⟩ => show win3_2.index t (0 : Fin 2) * 5000 + 1 * p.val = t.val * 5000 + p.val; omega
  | ⟨1, _⟩ => show win3_2.index t (1 : Fin 2) * 128 + 1 * k.val = k.val; omega

theorem read3 (c : Dev nD) (t : Fin cfg3.N) (k q : Fin 128) :
    iblk3 V c 3 t (ix2 k q) = V c main_call0_v24 (ix2 k q) := by
  show V c main_call0_v24 (((cfg3.win 3).blk t).view.emb (ix2 k q)) = V c main_call0_v24 (ix2 k q)
  refine congrArg _ (funext fun a => Fin.ext ?_)
  obtain ⟨-, -, -, -, -, -, e0, e1, -⟩ := idx_facts t
  match a with
  | ⟨0, _⟩ => show win3_3.index t (0 : Fin 2) * 128 + 1 * k.val = k.val; omega
  | ⟨1, _⟩ => show win3_3.index t (1 : Fin 2) * 128 + 1 * q.val = q.val; omega

theorem read4 (c : Dev nD) (t : Fin cfg3.N) (q : Fin 128) :
    iblk3 V c 4 t (ix1 q) = V c main_arg18 (ix1 q) := by
  show V c main_arg18 (((cfg3.win 4).blk t).view.emb (ix1 q)) = V c main_arg18 (ix1 q)
  refine congrArg _ (funext fun a => Fin.ext ?_)
  obtain ⟨-, -, -, -, -, -, -, -, e0, -⟩ := idx_facts t
  match a with
  | ⟨0, _⟩ => show win3_4.index t (0 : Fin 1) * 128 + 1 * q.val = q.val; omega

theorem read5 (c : Dev nD) (t : Fin cfg3.N) (k q : Fin 128) :
    iblk3 V c 5 t (ix2 k q) = V c main_call0_v25 (ix2 k q) := by
  show V c main_call0_v25 (((cfg3.win 5).blk t).view.emb (ix2 k q)) = V c main_call0_v25 (ix2 k q)
  refine congrArg _ (funext fun a => Fin.ext ?_)
  obtain ⟨-, -, -, -, -, -, -, -, -, e0, e1, -⟩ := idx_facts t
  match a with
  | ⟨0, _⟩ => show win3_5.index t (0 : Fin 2) * 128 + 1 * k.val = k.val; omega
  | ⟨1, _⟩ => show win3_5.index t (1 : Fin 2) * 128 + 1 * q.val = q.val; omega

/-- Entry `(p, q)` of the output's block `t` sits at `(5000 · t + p, q)` of the array. -/
theorem emb6 (t : Fin cfg3.N) (p : Fin 5000) (q : Fin 128) :
    ((cfg3.win 6).blk t).view.emb (ix2 p q) = ix2 (rowOf t p) q := by
  refine funext fun a => Fin.ext ?_
  obtain ⟨-, -, -, -, -, -, -, -, -, -, -, e0, e1⟩ := idx_facts t
  match a with
  | ⟨0, _⟩ => show win3_6.index t (0 : Fin 2) * 5000 + 1 * p.val = t.val * 5000 + p.val; omega
  | ⟨1, _⟩ => show win3_6.index t (1 : Fin 2) * 128 + 1 * q.val = q.val; omega

/-- What grid point `t` writes back is block `t` of `G`. -/
theorem flushed_eq (c : Dev nD) (t : Fin cfg3.N) :
    (dat3 (F := Ideal) V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S5000x128) hz, View.ld_unit_zero (S := S5000x1) hz, View.ld_unit_zero (S := S128x128) hz, View.ld_unit_zero (S := S128) hz1]
  funext j
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (iblk3 V c 3 t) (iblk3 V c 4 t) (iblk3 V c 5 t) (ix2 p q)
    = G V c (((cfg3.win 6).blk t).view.emb (ix2 p q))
  refine (pay_apply (iblk3 V c 0 t) (iblk3 V c 1 t) (iblk3 V c 2 t) (iblk3 V c 3 t) (iblk3 V c 4 t) (iblk3 V c 5 t) p q).trans ?_
  rw [emb6]
  unfold G Combine.entryMul
  simp only [read0 V c t, read1 V c t, read2 V c t, read3 V c t, read4 V c t, read5 V c t]

/-- An entry of the array is in grid point `t`'s block iff each coordinate is in the block's range on its axis. -/
theorem mem_blk (t : Fin cfg3.N) (i : S20000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_call0_v71).slice (win3_6.rect t)).set ↔ _
  rw [View.set_slice_whole, Rect.mem_set_unit]
  exact Iff.rfl

/-- Every entry of the array lies in the block of the grid point that owns its row: row `r` is in block `r / 5000`. -/
theorem cover (i : S20000x128.Idx) : ∃ t : Fin cfg3.N, (cfg3.win 6).flush t = true ∧ i ∈ ((cfg3.win 6).blk t).view.set := by
  have hi0 : (i 0).val < 20000 := (i 0).isLt
  have hi1 : (i 1).val < 128 := (i 1).isLt
  have ht : (i 0).val / 5000 < 4 := by omega
  obtain ⟨-, -, -, -, -, -, -, -, -, -, -, e0, e1⟩ := idx_facts ⟨(i 0).val / 5000, ht⟩
  refine ⟨⟨(i 0).val / 5000, ht⟩, flush3_6 _, ?_⟩
  rw [mem_blk]
  intro a
  match a with
  | ⟨0, _⟩ =>
    show win3_6.index ⟨(i 0).val / 5000, ht⟩ (0 : Fin 2) * 5000 ≤ (i 0).val ∧ (i 0).val < win3_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win3_6.index ⟨(i 0).val / 5000, ht⟩ (1 : Fin 2) * 128 ≤ (i 1).val ∧ (i 1).val < win3_6.index ⟨(i 0).val / 5000, ht⟩ (1 : Fin 2) * 128 + 128
    rw [e1]
    omega

/-- The output array when the region is left: the combine of the arrays the region found, entry by entry. -/
theorem value (c : Dev nD) : (dat3 (F := Ideal) V c).arrAt 6 cfg3.N = G V c :=
  (dat3 V c).arrAt_eq_of_cover 6 (G V c) (fun t _ => flushed_eq V c t) (cover)

end Cert.KernelIdeal.Region3

end
-- ==== Proof.RefLayers.lean ====
/-
  The reference's four layer outputs, read at one entry, on the extended reals.

  Each layer of the reference computes, for a destination row `p` and an output column `q`,
  `out p q = (∑ k, (agg p k / c p) · Wl k q) + b q + ∑ k, xd p k · Wr k q`,
  where `agg` is the sum of the source rows gathered along the edges into `p`, `c p = max (cnt p) 1` is the
  in-degree clamped below by one, and `xd` is the destination's own feature matrix. Layer 1 takes the larger of this
  number and zero. Here each of the four outputs (two node types, two layers) is unfolded operation by operation:
  the two matrix products are sums over the contracted index, the bias is broadcast along rows, the divisor is the
  clamped count broadcast along columns, and every broadcast reads its operand at the projected index. What remains
  is exactly the combine's entry `Cert.Combine.entryDiv`. The aggregates and the counts stay opaque functions of the
  arguments. The four clamp facts say that each divisor is the count's maximum with the float one.
-/
import proofs.«428911_j46093589020843_3_alg».proof.Proof.Gen.ReferenceIdeal.Read
import proofs.«428911_j46093589020843_3_alg».proof.Proof.Combine
import Idealize.ShloMosaic.PureOps.Ideal
import Idealize.ShloMosaic.PureOps.Ideal.Laws
import Idealize.ShloMosaic.Lib.ValueIdx

noncomputable section

namespace Cert.ReferenceIdeal.Layers

open Cert.ReferenceIdeal Cert.ReferenceIdeal.Read Idealize.ShloMosaic Idealize.ShloMosaic.ValueIdx Idealize.SL.Sem

/-! ## The divisors -/

/-- Layer 1, 100000-row side: the divisor is the in-degree count clamped below by one. -/
theorem clamp_v15 (x3 : (⟨S1000000, .i32⟩ : BufTy).Contents (Elt Ideal)) :
    val_main_v15 (F := Ideal) x3 = fun j => max (val_main_v13 (F := Ideal) x3 j) (Ideal.ofBits .f32 Cert.Combine.oneW) := by
  funext j
  rw [val_main_v15_apply, val_main_v14_apply, val_main_cst_3_apply]
  rfl

/-- Layer 1, 20000-row side: the divisor is the in-degree count clamped below by one. -/
theorem clamp_v41 (x5 : (⟨S1000000, .i32⟩ : BufTy).Contents (Elt Ideal)) :
    val_main_v41 (F := Ideal) x5 = fun j => max (val_main_v39 (F := Ideal) x5 j) (Ideal.ofBits .f32 Cert.Combine.oneW) := by
  funext j
  rw [val_main_v41_apply, val_main_v40_apply, val_main_cst_9_apply]
  rfl

/-- Layer 2, 100000-row side: the divisor is the in-degree count clamped below by one. -/
theorem clamp_v67 (x3 : (⟨S1000000, .i32⟩ : BufTy).Contents (Elt Ideal)) :
    val_main_v67 (F := Ideal) x3 = fun j => max (val_main_v65 (F := Ideal) x3 j) (Ideal.ofBits .f32 Cert.Combine.oneW) := by
  funext j
  rw [val_main_v67_apply, val_main_v66_apply, val_main_cst_15_apply]
  rfl

/-- Layer 2, 20000-row side: the divisor is the in-degree count clamped below by one. -/
theorem clamp_v92 (x5 : (⟨S1000000, .i32⟩ : BufTy).Contents (Elt Ideal)) :
    val_main_v92 (F := Ideal) x5 = fun j => max (val_main_v90 (F := Ideal) x5 j) (Ideal.ofBits .f32 Cert.Combine.oneW) := by
  funext j
  rw [val_main_v92_apply, val_main_v91_apply, val_main_cst_21_apply]
  rfl

/-! ## The layer outputs

In each proof: `e1`–`e4` say that the two products read row `i 0` of the left factor against column `i 1` of the right
one; `e5` that the bias is read at column `i 1`; `e6` that the divisor at `(p, k)` is the clamped count at `p`; `hdiv` that
the scaled aggregate at `j` is the aggregate at `j` divided by the clamped count of `j`'s row. -/

/-- Layer 1, the 100000-row side: entry `i` of the rectified output is the larger of zero and the combine's entry `(i 0, i 1)`,
    built from the aggregate of the gathered source rows, the clamped in-degree, the side's own features and the layer's weights. -/
theorem h_mrna_apply (x0 : (⟨S20000x128, .f32⟩ : BufTy).Contents (Elt Ideal)) (x1 : (⟨S100000x128, .f32⟩ : BufTy).Contents (Elt Ideal)) (x2 x3 : (⟨S1000000, .i32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (i : S100000x128.Idx) :
    val_main_v25 (F := Ideal) x0 x1 x2 x3 x8 x9 x10 i =
      max (Cert.Combine.entryDiv (n := 100000) (val_main_v9 (F := Ideal) x0 x2 x3) (val_main_v15 (F := Ideal) x3) x1 x8 x9 x10 (i 0) (i 1)) (Ideal.ofBits .f32 0x00000000#32) := by
  rw [val_main_v25_apply, val_main_v24_apply, val_main_v22_apply, val_main_v19_apply, val_main_v21_apply, val_main_v20_apply, val_main_v23_apply, val_main_call0_v0_apply, val_main_call0_cst_apply]
  have e1 : ∀ k : Fin 128, lidx_main_v19 i k = ix2 (n0 := 100000) (n1 := 128) (i 0) k := fun k => by
    funext a; match a with | ⟨0, _⟩ => rfl | ⟨1, _⟩ => rfl
  have e2 : ∀ k : Fin 128, ridx_main_v19 i k = ix2 (n0 := 128) (n1 := 128) k (i 1) := fun k => by
    funext a; match a with | ⟨0, _⟩ => rfl | ⟨1, _⟩ => rfl
  have e3 : ∀ k : Fin 128, lidx_main_v23 i k = ix2 (n0 := 100000) (n1 := 128) (i 0) k := fun k => by
    funext a; match a with | ⟨0, _⟩ => rfl | ⟨1, _⟩ => rfl
  have e4 : ∀ k : Fin 128, ridx_main_v23 i k = ix2 (n0 := 128) (n1 := 128) k (i 1) := fun k => by
    funext a; match a with | ⟨0, _⟩ => rfl | ⟨1, _⟩ => rfl
  have e5 : idx_main_v20 (idx_main_v21 i) = ix1 (n := 128) (i 1) := by
    funext a; match a with | ⟨0, _⟩ => rfl
  have e6 : ∀ j : S100000x128.Idx, idx_main_v16 (idx_main_v17 j) = ix1 (n := 100000) (j 0) := fun j => by
    funext a; match a with | ⟨0, _⟩ => rfl
  have hdiv : ∀ j : S100000x128.Idx, val_main_v18 (F := Ideal) x0 x2 x3 j
      = Ideal.div (val_main_v9 (F := Ideal) x0 x2 x3 j) (val_main_v15 (F := Ideal) x3 (ix1 (n := 100000) (j 0))) := fun j => by
    rw [val_main_v18_apply, val_main_v17_apply, val_main_v16_apply, e6]; rfl
  simp only [e1, e2, e3, e4, e5, hdiv, Ideal.addf_def, Ideal.maximumf_def, Ideal.ofBits_def, Cert.Combine.entryDiv]

/-- Layer 1, the 20000-row side: entry `i` of the rectified output is the larger of zero and the combine's entry `(i 0, i 1)`. -/
theorem h_srna_apply (x0 : (⟨S20000x128, .f32⟩ : BufTy).Contents (Elt Ideal)) (x1 : (⟨S100000x128, .f32⟩ : BufTy).Contents (Elt Ideal)) (x4 x5 : (⟨S1000000, .i32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (i : S20000x128.Idx) :
    val_main_v51 (F := Ideal) x0 x1 x4 x5 x11 x12 x13 i =
      max (Cert.Combine.entryDiv (n := 20000) (val_main_v35 (F := Ideal) x1 x4 x5) (val_main_v41 (F := Ideal) x5) x0 x11 x12 x13 (i 0) (i 1)) (Ideal.ofBits .f32 0x00000000#32) := by
  rw [val_main_v51_apply, val_main_v50_apply, val_main_v48_apply, val_main_v45_apply, val_main_v47_apply, val_main_v46_apply, val_main_v49_apply, val_main_call1_v0_apply, val_main_call1_cst_apply]
  have e1 : ∀ k : Fin 128, lidx_main_v45 i k = ix2 (n0 := 20000) (n1 := 128) (i 0) k := fun k => by
    funext a; match a with | ⟨0, _⟩ => rfl | ⟨1, _⟩ => rfl
  have e2 : ∀ k : Fin 128, ridx_main_v45 i k = ix2 (n0 := 128) (n1 := 128) k (i 1) := fun k => by
    funext a; match a with | ⟨0, _⟩ => rfl | ⟨1, _⟩ => rfl
  have e3 : ∀ k : Fin 128, lidx_main_v49 i k = ix2 (n0 := 20000) (n1 := 128) (i 0) k := fun k => by
    funext a; match a with | ⟨0, _⟩ => rfl | ⟨1, _⟩ => rfl
  have e4 : ∀ k : Fin 128, ridx_main_v49 i k = ix2 (n0 := 128) (n1 := 128) k (i 1) := fun k => by
    funext a; match a with | ⟨0, _⟩ => rfl | ⟨1, _⟩ => rfl
  have e5 : idx_main_v46 (idx_main_v47 i) = ix1 (n := 128) (i 1) := by
    funext a; match a with | ⟨0, _⟩ => rfl
  have e6 : ∀ j : S20000x128.Idx, idx_main_v42 (idx_main_v43 j) = ix1 (n := 20000) (j 0) := fun j => by
    funext a; match a with | ⟨0, _⟩ => rfl
  have hdiv : ∀ j : S20000x128.Idx, val_main_v44 (F := Ideal) x1 x4 x5 j
      = Ideal.div (val_main_v35 (F := Ideal) x1 x4 x5 j) (val_main_v41 (F := Ideal) x5 (ix1 (n := 20000) (j 0))) := fun j => by
    rw [val_main_v44_apply, val_main_v43_apply, val_main_v42_apply, e6]; rfl
  simp only [e1, e2, e3, e4, e5, hdiv, Ideal.addf_def, Ideal.maximumf_def, Ideal.ofBits_def, Cert.Combine.entryDiv]

/-- Layer 2, the 100000-row side: entry `i` of the output is the combine's entry `(i 0, i 1)`, the destination's own features
    being layer 1's rectified output on the same side. -/
theorem z_mrna_apply (x0 : (⟨S20000x128, .f32⟩ : BufTy).Contents (Elt Ideal)) (x1 : (⟨S100000x128, .f32⟩ : BufTy).Contents (Elt Ideal)) (x2 x3 x4 x5 : (⟨S1000000, .i32⟩ : BufTy).Contents (Elt Ideal)) (x8 : (⟨S128x128, .f32⟩ : BufTy).Contents (Elt Ideal)) (x9 : (⟨S128, .f32⟩ : BufTy).Contents (Elt Ideal)) (x10 x11 : (⟨S128x128, .f32⟩ : BufTy).Contents (Elt Ideal)) (x12 : (⟨S128, .f32⟩ : BufTy).Contents (Elt Ideal)) (x13 x14 : (⟨S128x128, .f32⟩ : BufTy).Contents (Elt Ideal)) (x15 : (⟨S128, .f32⟩ : BufTy).Contents (Elt Ideal)) (x16 : (⟨S128x128, .f32⟩ : BufTy).Contents (Elt Ideal)) (i : S100000x128.Idx) :
    val_main_v76 (F := Ideal) x0 x1 x2 x3 x4 x5 x8 x9 x10 x11 x12 x13 x14 x15 x16 i =
      Cert.Combine.entryDiv (n := 100000) (val_main_v61 (F := Ideal) x0 x1 x2 x3 x4 x5 x11 x12 x13) (val_main_v67 (F := Ideal) x3) (val_main_v25 (F := Ideal) x0 x1 x2 x3 x8 x9 x10) x14 x15 x16 (i 0) (i 1) := by
  rw [val_main_v76_apply, val_main_v74_apply, val_main_v71_apply, val_main_v73_apply, val_main_v72_apply, val_main_v75_apply]
  have e1 : ∀ k : Fin 128, lidx_main_v71 i k = ix2 (n0 := 100000) (n1 := 128) (i 0) k := fun k => by
    funext a; match a with | ⟨0, _⟩ => rfl | ⟨1, _⟩ => rfl
  have e2 : ∀ k : Fin 128, ridx_main_v71 i k = ix2 (n0 := 128) (n1 := 128) k (i 1) := fun k => by
    funext a; match a with | ⟨0, _⟩ => rfl | ⟨1, _⟩ => rfl
  have e3 : ∀ k : Fin 128, lidx_main_v75 i k = ix2 (n0 := 100000) (n1 := 128) (i 0) k := fun k => by
    funext a; match a with | ⟨0, _⟩ => rfl | ⟨1, _⟩ => rfl
  have e4 : ∀ k : Fin 128, ridx_main_v75 i k = ix2 (n0 := 128) (n1 := 128) k (i 1) := fun k => by
    funext a; match a with | ⟨0, _⟩ => rfl | ⟨1, _⟩ => rfl
  have e5 : idx_main_v72 (idx_main_v73 i) = ix1 (n := 128) (i 1) := by
    funext a; match a with | ⟨0, _⟩ => rfl
  have e6 : ∀ j : S100000x128.Idx, idx_main_v68 (idx_main_v69 j) = ix1 (n := 100000) (j 0) := fun j => by
    funext a; match a with | ⟨0, _⟩ => rfl
  have hdiv : ∀ j : S100000x128.Idx, val_main_v70 (F := Ideal) x0 x1 x2 x3 x4 x5 x11 x12 x13 j
      = Ideal.div (val_main_v61 (F := Ideal) x0 x1 x2 x3 x4 x5 x11 x12 x13 j) (val_main_v67 (F := Ideal) x3 (ix1 (n := 100000) (j 0))) := fun j => by
    rw [val_main_v70_apply, val_main_v69_apply, val_main_v68_apply, e6]; rfl
  simp only [e1, e2, e3, e4, e5, hdiv, Ideal.addf_def, Cert.Combine.entryDiv]

/-- Layer 2, the 20000-row side: entry `i` of the output is the combine's entry `(i 0, i 1)`, the destination's own features
    being layer 1's rectified output on the same side. -/
theorem z_srna_apply (x0 : (⟨S20000x128, .f32⟩ : BufTy).Contents (Elt Ideal)) (x1 : (⟨S100000x128, .f32⟩ : BufTy).Contents (Elt Ideal)) (x2 x3 x4 x5 : (⟨S1000000, .i32⟩ : BufTy).Contents (Elt Ideal)) (x8 : (⟨S128x128, .f32⟩ : BufTy).Contents (Elt Ideal)) (x9 : (⟨S128, .f32⟩ : BufTy).Contents (Elt Ideal)) (x10 x11 : (⟨S128x128, .f32⟩ : BufTy).Contents (Elt Ideal)) (x12 : (⟨S128, .f32⟩ : BufTy).Contents (Elt Ideal)) (x13 x17 : (⟨S128x128, .f32⟩ : BufTy).Contents (Elt Ideal)) (x18 : (⟨S128, .f32⟩ : BufTy).Contents (Elt Ideal)) (x19 : (⟨S128x128, .f32⟩ : BufTy).Contents (Elt Ideal)) (i : S20000x128.Idx) :
    val_main_v101 (F := Ideal) x0 x1 x2 x3 x4 x5 x8 x9 x10 x11 x12 x13 x17 x18 x19 i =
      Cert.Combine.entryDiv (n := 20000) (val_main_v86 (F := Ideal) x0 x1 x2 x3 x4 x5 x8 x9 x10) (val_main_v92 (F := Ideal) x5) (val_main_v51 (F := Ideal) x0 x1 x4 x5 x11 x12 x13) x17 x18 x19 (i 0) (i 1) := by
  rw [val_main_v101_apply, val_main_v99_apply, val_main_v96_apply, val_main_v98_apply, val_main_v97_apply, val_main_v100_apply]
  have e1 : ∀ k : Fin 128, lidx_main_v96 i k = ix2 (n0 := 20000) (n1 := 128) (i 0) k := fun k => by
    funext a; match a with | ⟨0, _⟩ => rfl | ⟨1, _⟩ => rfl
  have e2 : ∀ k : Fin 128, ridx_main_v96 i k = ix2 (n0 := 128) (n1 := 128) k (i 1) := fun k => by
    funext a; match a with | ⟨0, _⟩ => rfl | ⟨1, _⟩ => rfl
  have e3 : ∀ k : Fin 128, lidx_main_v100 i k = ix2 (n0 := 20000) (n1 := 128) (i 0) k := fun k => by
    funext a; match a with | ⟨0, _⟩ => rfl | ⟨1, _⟩ => rfl
  have e4 : ∀ k : Fin 128, ridx_main_v100 i k = ix2 (n0 := 128) (n1 := 128) k (i 1) := fun k => by
    funext a; match a with | ⟨0, _⟩ => rfl | ⟨1, _⟩ => rfl
  have e5 : idx_main_v97 (idx_main_v98 i) = ix1 (n := 128) (i 1) := by
    funext a; match a with | ⟨0, _⟩ => rfl
  have e6 : ∀ j : S20000x128.Idx, idx_main_v93 (idx_main_v94 j) = ix1 (n := 20000) (j 0) := fun j => by
    funext a; match a with | ⟨0, _⟩ => rfl
  have hdiv : ∀ j : S20000x128.Idx, val_main_v95 (F := Ideal) x0 x1 x2 x3 x4 x5 x8 x9 x10 j
      = Ideal.div (val_main_v86 (F := Ideal) x0 x1 x2 x3 x4 x5 x8 x9 x10 j) (val_main_v92 (F := Ideal) x5 (ix1 (n := 20000) (j 0))) := fun j => by
    rw [val_main_v95_apply, val_main_v94_apply, val_main_v93_apply, e6]; rfl
  simp only [e1, e2, e3, e4, e5, hdiv, Ideal.addf_def, Cert.Combine.entryDiv]

end Cert.ReferenceIdeal.Layers

end
-- ==== Proof.HostKeep.lean ====
/-
  Which buffers each segment of the kernel's host program leaves alone: a stretch of host operations changes only the
  buffers it writes, and a kernel region changes only its output array. So a value computed early (the reciprocal
  in-degrees, the rounded weights, a layer's output, an argument) is still there when a later segment reads it.
-/
import proofs.«428911_j46093589020843_3_alg».proof.Proof.Gen.KernelIdeal.Frame
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F] (m : (ℓ : Loc nD τ sig) → Buf (Elt F) ℓ) (ρ : Dev nD → PrngReg)

/-! ## What each segment leaves untouched -/

/-- The buffers host stretch 0 writes. -/
def wr0 : List (Ref sig .tc) :=
  [main_call0_cst, main_call0_v0, main_call0_cst_0, main_call0_v1, main_call0_v2, main_call0_v3, main_call0_cst_1, main_call0_v4, main_call0_v5, main_call0_cst_2, main_call0_v6, main_call0_v7, main_call0_v8, main_call0_cst_3, main_call0_v9, main_call0_cst_4, main_call0_v10, main_call0_v11, main_call0_v12, main_call0_cst_5, main_call0_v13, main_call0_v14, main_call0_cst_6, main_call0_v15, main_call0_v16, main_call0_v17, main_call0_v18, main_call0_v19, main_call0_v20, main_call0_v21, main_call0_v22, main_call0_v23, main_call0_v24, main_call0_v25, main_call0_c, main_call0_v26, main_call0_v27, main_call0_c_7, main_call0_v28, main_call0_v29, main_call0_v30, main_call0_v31, main_call0_v32, main_call0_cst_8, main_call0_v33, main_call0_v34, main_call0_v35]
/-- The buffers host stretch 1 writes. -/
def wr1 : List (Ref sig .tc) :=
  [main_call0_c_9, main_call0_v37, main_call0_v38, main_call0_c_10, main_call0_v39, main_call0_v40, main_call0_v41, main_call0_v42, main_call0_v43, main_call0_cst_11, main_call0_v44, main_call0_v45, main_call0_v46]
/-- The buffers host stretch 2 writes. -/
def wr2 : List (Ref sig .tc) :=
  [main_call0_c_12, main_call0_v48, main_call0_v49, main_call0_c_13, main_call0_v50, main_call0_v51, main_call0_v52, main_call0_v53, main_call0_v54, main_call0_v55, main_call0_cst_14, main_call0_v56, main_call0_v57, main_call0_v58]
/-- The buffers host stretch 3 writes. -/
def wr3 : List (Ref sig .tc) :=
  [main_call0_c_15, main_call0_v60, main_call0_v61, main_call0_c_16, main_call0_v62, main_call0_v63, main_call0_v64, main_call0_v65, main_call0_v66, main_call0_v67, main_call0_cst_17, main_call0_v68, main_call0_v69, main_call0_v70]
/-- The buffers host stretch 4 writes. -/
def wr4 : List (Ref sig .tc) :=
  [main_call0_c_18, main_call0_v72, main_call0_v73, main_call0_c_19, main_call0_v74, main_call0_v75, main_call0_v76, main_call0_v77, main_call0_v78, main_call0_c_20, main_call0_v79, main_call0_v80, main_call0_c_21, main_call0_v81, main_call0_v82, main_call0_v83, main_call0_v84, main_call0_v85, main_call0_v86, main_call0_cst_22, main_v0]

/-- A buffer that stretch 0 does not write holds after it what it held before. -/
theorem keepH0 (c : Dev nD) (b : Ref sig .tc) (hb : ∀ r ∈ wr0, b ≠ r) :
    W1 m ρ c (Proc.devRef .tc b) = W0 m ρ c (Proc.devRef .tc b) := by
  refine StableHlo.after_of_forall_not_mem (b := Proc.devRef .tc b) _ _ (List.forall_iff_forall_mem.mp ?_)
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hb _ (by decide))

/-- A buffer that stretch 1 does not write holds after it what it held before. -/
theorem keepH1 (c : Dev nD) (b : Ref sig .tc) (hb : ∀ r ∈ wr1, b ≠ r) :
    W3 m ρ c (Proc.devRef .tc b) = W2 m ρ c (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hb _ (by decide))

/-- A buffer that stretch 2 does not write holds after it what it held before. -/
theorem keepH2 (c : Dev nD) (b : Ref sig .tc) (hb : ∀ r ∈ wr2, b ≠ r) :
    W5 m ρ c (Proc.devRef .tc b) = W4 m ρ c (Proc.devRef .tc b) := by
  refine StableHlo.after_of_forall_not_mem (b := Proc.devRef .tc b) _ _ (List.forall_iff_forall_mem.mp ?_)
  simp only [hostOps2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hb _ (by decide))

/-- A buffer that stretch 3 does not write holds after it what it held before. -/
theorem keepH3 (c : Dev nD) (b : Ref sig .tc) (hb : ∀ r ∈ wr3, b ≠ r) :
    W7 m ρ c (Proc.devRef .tc b) = W6 m ρ c (Proc.devRef .tc b) := by
  refine StableHlo.after_of_forall_not_mem (b := Proc.devRef .tc b) _ _ (List.forall_iff_forall_mem.mp ?_)
  simp only [hostOps3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hb _ (by decide))

/-- A buffer that stretch 4 does not write holds after it what it held before. -/
theorem keepH4 (c : Dev nD) (b : Ref sig .tc) (hb : ∀ r ∈ wr4, b ≠ r) :
    W9 m ρ c (Proc.devRef .tc b) = W8 m ρ c (Proc.devRef .tc b) := by
  refine StableHlo.after_of_forall_not_mem (b := Proc.devRef .tc b) _ _ (List.forall_iff_forall_mem.mp ?_)
  simp only [hostOps4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hb _ (by decide))

/-- A buffer other than region 0's output holds after the region what it held before: an input array is only read, and
    every other buffer is not the region's. -/
theorem keepR0 (c : Dev nD) (b : Ref sig .tc) (hb : b ≠ main_call0_v36) :
    W2 m ρ c (Proc.devRef .tc b) = W1 m ρ c (Proc.devRef .tc b) := by
  by_cases h : ∃ w : Fin cfg0.W, Pipeline.arrRef spec0 w = b
  · obtain ⟨w, rfl⟩ := h
    have key : ∀ w : Fin cfg0.W, Pipeline.arrRef spec0 w ≠ main_call0_v36 → (cfg0.win w).isOut = false := by decide
    exact (W2_arr m ρ c w).trans (((dat0 (V1 m ρ) c).arrAt_in w (key w hb) _).trans (A_eq0 (V1 m ρ) c w))
  · exact W2_of_ne m ρ c b (fun w e => h ⟨w, e⟩)

/-- A buffer other than region 1's output holds after the region what it held before: an input array is only read, and
    every other buffer is not the region's. -/
theorem keepR1 (c : Dev nD) (b : Ref sig .tc) (hb : b ≠ main_call0_v47) :
    W4 m ρ c (Proc.devRef .tc b) = W3 m ρ c (Proc.devRef .tc b) := by
  by_cases h : ∃ w : Fin cfg1.W, Pipeline.arrRef spec1 w = b
  · obtain ⟨w, rfl⟩ := h
    have key : ∀ w : Fin cfg1.W, Pipeline.arrRef spec1 w ≠ main_call0_v47 → (cfg1.win w).isOut = false := by decide
    exact (W4_arr m ρ c w).trans (((dat1 (V3 m ρ) c).arrAt_in w (key w hb) _).trans (A_eq1 (V3 m ρ) c w))
  · exact W4_of_ne m ρ c b (fun w e => h ⟨w, e⟩)

/-- A buffer other than region 2's output holds after the region what it held before: an input array is only read, and
    every other buffer is not the region's. -/
theorem keepR2 (c : Dev nD) (b : Ref sig .tc) (hb : b ≠ main_call0_v59) :
    W6 m ρ c (Proc.devRef .tc b) = W5 m ρ c (Proc.devRef .tc b) := by
  by_cases h : ∃ w : Fin cfg2.W, Pipeline.arrRef spec2 w = b
  · obtain ⟨w, rfl⟩ := h
    have key : ∀ w : Fin cfg2.W, Pipeline.arrRef spec2 w ≠ main_call0_v59 → (cfg2.win w).isOut = false := by decide
    exact (W6_arr m ρ c w).trans (((dat2 (V5 m ρ) c).arrAt_in w (key w hb) _).trans (A_eq2 (V5 m ρ) c w))
  · exact W6_of_ne m ρ c b (fun w e => h ⟨w, e⟩)

/-- A buffer other than region 3's output holds after the region what it held before: an input array is only read, and
    every other buffer is not the region's. -/
theorem keepR3 (c : Dev nD) (b : Ref sig .tc) (hb : b ≠ main_call0_v71) :
    W8 m ρ c (Proc.devRef .tc b) = W7 m ρ c (Proc.devRef .tc b) := by
  by_cases h : ∃ w : Fin cfg3.W, Pipeline.arrRef spec3 w = b
  · obtain ⟨w, rfl⟩ := h
    have key : ∀ w : Fin cfg3.W, Pipeline.arrRef spec3 w ≠ main_call0_v71 → (cfg3.win w).isOut = false := by decide
    exact (W8_arr m ρ c w).trans (((dat3 (V7 m ρ) c).arrAt_in w (key w hb) _).trans (A_eq3 (V7 m ρ) c w))
  · exact W8_of_ne m ρ c b (fun w e => h ⟨w, e⟩)

/-! ## The argument arrays at every boundary -/

/-- @main's twenty argument buffers. -/
def argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19]

theorem arg_ne_wr0 : ∀ b ∈ argRefs, ∀ r ∈ wr0, b ≠ r := by decide
theorem arg_ne_wr1 : ∀ b ∈ argRefs, ∀ r ∈ wr1, b ≠ r := by decide
theorem arg_ne_wr2 : ∀ b ∈ argRefs, ∀ r ∈ wr2, b ≠ r := by decide
theorem arg_ne_wr3 : ∀ b ∈ argRefs, ∀ r ∈ wr3, b ≠ r := by decide
theorem arg_ne_wr4 : ∀ b ∈ argRefs, ∀ r ∈ wr4, b ≠ r := by decide
theorem arg_ne_out : ∀ b ∈ argRefs, b ≠ main_call0_v36 ∧ b ≠ main_call0_v47 ∧ b ≠ main_call0_v59 ∧ b ≠ main_call0_v71 := by decide

/-- No segment writes an argument: at every boundary it holds its launch contents. -/
theorem argW1 (c : Dev nD) (b : Ref sig .tc) (hb : b ∈ argRefs) : W1 m ρ c (Proc.devRef .tc b) = m ((c : Thread nD τ).loc b) :=
  (keepH0 m ρ c b (arg_ne_wr0 b hb)).trans rfl
theorem argW2 (c : Dev nD) (b : Ref sig .tc) (hb : b ∈ argRefs) : W2 m ρ c (Proc.devRef .tc b) = m ((c : Thread nD τ).loc b) :=
  (keepR0 m ρ c b (arg_ne_out b hb).1).trans (argW1 m ρ c b hb)
theorem argW3 (c : Dev nD) (b : Ref sig .tc) (hb : b ∈ argRefs) : W3 m ρ c (Proc.devRef .tc b) = m ((c : Thread nD τ).loc b) :=
  (keepH1 m ρ c b (arg_ne_wr1 b hb)).trans (argW2 m ρ c b hb)
theorem argW4 (c : Dev nD) (b : Ref sig .tc) (hb : b ∈ argRefs) : W4 m ρ c (Proc.devRef .tc b) = m ((c : Thread nD τ).loc b) :=
  (keepR1 m ρ c b (arg_ne_out b hb).2.1).trans (argW3 m ρ c b hb)
theorem argW5 (c : Dev nD) (b : Ref sig .tc) (hb : b ∈ argRefs) : W5 m ρ c (Proc.devRef .tc b) = m ((c : Thread nD τ).loc b) :=
  (keepH2 m ρ c b (arg_ne_wr2 b hb)).trans (argW4 m ρ c b hb)
theorem argW6 (c : Dev nD) (b : Ref sig .tc) (hb : b ∈ argRefs) : W6 m ρ c (Proc.devRef .tc b) = m ((c : Thread nD τ).loc b) :=
  (keepR2 m ρ c b (arg_ne_out b hb).2.2.1).trans (argW5 m ρ c b hb)
theorem argW7 (c : Dev nD) (b : Ref sig .tc) (hb : b ∈ argRefs) : W7 m ρ c (Proc.devRef .tc b) = m ((c : Thread nD τ).loc b) :=
  (keepH3 m ρ c b (arg_ne_wr3 b hb)).trans (argW6 m ρ c b hb)
theorem argW8 (c : Dev nD) (b : Ref sig .tc) (hb : b ∈ argRefs) : W8 m ρ c (Proc.devRef .tc b) = m ((c : Thread nD τ).loc b) :=
  (keepR3 m ρ c b (arg_ne_out b hb).2.2.2).trans (argW7 m ρ c b hb)

end Cert.KernelIdeal.HostValue

end
-- ==== Proof.HostFacts.lean ====
/-
  What each stretch of the kernel's host program computes, as a function of what it reads: the aggregates (gathers and
  scatter-adds), the reciprocal clamped in-degrees, the rounded weights and the edge decoder. Every statement holds at any
  float instance: the operations are the reference's own, applied to the same operands, so each side is the same term.
-/
import proofs.«428911_j46093589020843_3_alg».proof.Proof.Gen.KernelIdeal.Frame
import proofs.«428911_j46093589020843_3_alg».proof.Proof.Gen.ReferenceIdeal.Read
import proofs.«428911_j46093589020843_3_alg».proof.Proof.HostKeep
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F] (m : (ℓ : Loc nD τ sig) → Buf (Elt F) ℓ) (ρ : Dev nD → PrngReg)

/-! ## The arguments, named -/

abbrev A0 (c : Dev nD) : (⟨S20000x128, .f32⟩ : BufTy).Contents (Elt F) := m ((c : Thread nD τ).loc main_arg0)
abbrev A1 (c : Dev nD) : (⟨S100000x128, .f32⟩ : BufTy).Contents (Elt F) := m ((c : Thread nD τ).loc main_arg1)
abbrev A2 (c : Dev nD) : (⟨S1000000, .i32⟩ : BufTy).Contents (Elt F) := m ((c : Thread nD τ).loc main_arg2)
abbrev A3 (c : Dev nD) : (⟨S1000000, .i32⟩ : BufTy).Contents (Elt F) := m ((c : Thread nD τ).loc main_arg3)
abbrev A4 (c : Dev nD) : (⟨S1000000, .i32⟩ : BufTy).Contents (Elt F) := m ((c : Thread nD τ).loc main_arg4)
abbrev A5 (c : Dev nD) : (⟨S1000000, .i32⟩ : BufTy).Contents (Elt F) := m ((c : Thread nD τ).loc main_arg5)
abbrev A6 (c : Dev nD) : (⟨S500000, .i32⟩ : BufTy).Contents (Elt F) := m ((c : Thread nD τ).loc main_arg6)
abbrev A7 (c : Dev nD) : (⟨S500000, .i32⟩ : BufTy).Contents (Elt F) := m ((c : Thread nD τ).loc main_arg7)
abbrev A8 (c : Dev nD) : (⟨S128x128, .f32⟩ : BufTy).Contents (Elt F) := m ((c : Thread nD τ).loc main_arg8)
abbrev A9 (c : Dev nD) : (⟨S128, .f32⟩ : BufTy).Contents (Elt F) := m ((c : Thread nD τ).loc main_arg9)
abbrev A10 (c : Dev nD) : (⟨S128x128, .f32⟩ : BufTy).Contents (Elt F) := m ((c : Thread nD τ).loc main_arg10)
abbrev A11 (c : Dev nD) : (⟨S128x128, .f32⟩ : BufTy).Contents (Elt F) := m ((c : Thread nD τ).loc main_arg11)
abbrev A12 (c : Dev nD) : (⟨S128, .f32⟩ : BufTy).Contents (Elt F) := m ((c : Thread nD τ).loc main_arg12)
abbrev A13 (c : Dev nD) : (⟨S128x128, .f32⟩ : BufTy).Contents (Elt F) := m ((c : Thread nD τ).loc main_arg13)
abbrev A14 (c : Dev nD) : (⟨S128x128, .f32⟩ : BufTy).Contents (Elt F) := m ((c : Thread nD τ).loc main_arg14)
abbrev A15 (c : Dev nD) : (⟨S128, .f32⟩ : BufTy).Contents (Elt F) := m ((c : Thread nD τ).loc main_arg15)
abbrev A16 (c : Dev nD) : (⟨S128x128, .f32⟩ : BufTy).Contents (Elt F) := m ((c : Thread nD τ).loc main_arg16)
abbrev A17 (c : Dev nD) : (⟨S128x128, .f32⟩ : BufTy).Contents (Elt F) := m ((c : Thread nD τ).loc main_arg17)
abbrev A18 (c : Dev nD) : (⟨S128, .f32⟩ : BufTy).Contents (Elt F) := m ((c : Thread nD τ).loc main_arg18)
abbrev A19 (c : Dev nD) : (⟨S128x128, .f32⟩ : BufTy).Contents (Elt F) := m ((c : Thread nD τ).loc main_arg19)

/-! ## The shared host chains, as functions of the layer outputs they read -/

/-- The second layer's aggregate over the first relation, of a 20000-row feature array: gather its rows at the (wrapped)
    source indices, scatter-add them at the destination indices into zeros. -/
def agg2_sm (h : (⟨S20000x128, .f32⟩ : BufTy).Contents (Elt F)) (src dst : (⟨S1000000, .i32⟩ : BufTy).Contents (Elt F)) : (⟨S100000x128, .f32⟩ : BufTy).Contents (Elt F) :=
  Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 dst) (Host.gather gather_S20000x128_S1000000x1_S1000000x128_1_0_n_n_0_1_1128 h (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 20000#32))) src)))

/-- The same aggregate where the feature array is stored in the narrow float format and widened after the gather. -/
def agg2K_sm (h : (⟨S20000x128, .bf16⟩ : BufTy).Contents (Elt F)) (src dst : (⟨S1000000, .i32⟩ : BufTy).Contents (Elt F)) : (⟨S100000x128, .f32⟩ : BufTy).Contents (Elt F) :=
  Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 dst) (extf .f32 (Host.gather gather_S20000x128_S1000000x1_S1000000x128_1_0_n_n_0_1_1128 h (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 20000#32))) src))) bitsLt_bf16_f32)

/-- The second layer's aggregate over the second relation, of a 100000-row feature array. -/
def agg2_ms (h : (⟨S100000x128, .f32⟩ : BufTy).Contents (Elt F)) (src dst : (⟨S1000000, .i32⟩ : BufTy).Contents (Elt F)) : (⟨S20000x128, .f32⟩ : BufTy).Contents (Elt F) :=
  Host.scatterAdd scatter_S20000x128_S1000000x1_S1000000x128_1_0_0_1 (broadcastInDim S20000x128 ![] bcast_S_S20000x128 (constant S_ .f32 0x00000000#32)) (broadcastInDim S1000000x1 ![0] bcast_S1000000_S1000000x1_0 dst) (Host.gather gather_S100000x128_S1000000x1_S1000000x128_1_0_n_n_0_1_1128 h (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 100000#32))) src)))

/-- The same aggregate over the narrow-format feature array. -/
def agg2K_ms (h : (⟨S100000x128, .bf16⟩ : BufTy).Contents (Elt F)) (src dst : (⟨S1000000, .i32⟩ : BufTy).Contents (Elt F)) : (⟨S20000x128, .f32⟩ : BufTy).Contents (Elt F) :=
  Host.scatterAdd scatter_S20000x128_S1000000x1_S1000000x128_1_0_0_1 (broadcastInDim S20000x128 ![] bcast_S_S20000x128 (constant S_ .f32 0x00000000#32)) (broadcastInDim S1000000x1 ![0] bcast_S1000000_S1000000x1_0 dst) (extf .f32 (Host.gather gather_S100000x128_S1000000x1_S1000000x128_1_0_n_n_0_1_1128 h (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 100000#32))) src))) bitsLt_bf16_f32)

/-- The edge decoder: the rows of the two final embeddings at the (wrapped) label indices, multiplied entry by entry and
    summed along the features. -/
def decode (zs : (⟨S20000x128, .f32⟩ : BufTy).Contents (Elt F)) (zm : (⟨S100000x128, .f32⟩ : BufTy).Contents (Elt F)) (row col : (⟨S500000, .i32⟩ : BufTy).Contents (Elt F)) : (⟨S500000, .f32⟩ : BufTy).Contents (Elt F) :=
  Host.reduceAdd (mulf (Host.gather gather_S20000x128_S500000x1_S500000x128_1_0_n_n_0_1_1128 zs (broadcastInDim S500000x1 ![0] bcast_S500000_S500000x1_0 (select (cmpi .slt row (broadcastInDim S500000 ![] bcast_S_S500000 (constantI S_ 32 0#32))) (addi row (broadcastInDim S500000 ![] bcast_S_S500000 (constantI S_ 32 20000#32))) row)))
    (Host.gather gather_S100000x128_S500000x1_S500000x128_1_0_n_n_0_1_1128 zm (broadcastInDim S500000x1 ![0] bcast_S500000_S500000x1_0 (select (cmpi .slt col (broadcastInDim S500000 ![] bcast_S_S500000 (constantI S_ 32 0#32))) (addi col (broadcastInDim S500000 ![] bcast_S_S500000 (constantI S_ 32 100000#32))) col))))
    (constant S_ .f32 0x00000000#32) reducesTo_S500000x128_S500000_d1 h_S_

/-! ## The reference's stages over the same functions -/

theorem ref_v61 (x0 : (⟨S20000x128, .f32⟩ : BufTy).Contents (Elt F)) (x1 : (⟨S100000x128, .f32⟩ : BufTy).Contents (Elt F)) (x2 x3 x4 x5 : (⟨S1000000, .i32⟩ : BufTy).Contents (Elt F)) (x11 : (⟨S128x128, .f32⟩ : BufTy).Contents (Elt F)) (x12 : (⟨S128, .f32⟩ : BufTy).Contents (Elt F)) (x13 : (⟨S128x128, .f32⟩ : BufTy).Contents (Elt F)) :
    val_main_v61 (F := F) x0 x1 x2 x3 x4 x5 x11 x12 x13 = agg2_sm (val_main_v51 (F := F) x0 x1 x4 x5 x11 x12 x13) x2 x3 := rfl

theorem ref_v86 (x0 : (⟨S20000x128, .f32⟩ : BufTy).Contents (Elt F)) (x1 : (⟨S100000x128, .f32⟩ : BufTy).Contents (Elt F)) (x2 x3 x4 x5 : (⟨S1000000, .i32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) :
    val_main_v86 (F := F) x0 x1 x2 x3 x4 x5 x8 x9 x10 = agg2_ms (val_main_v25 (F := F) x0 x1 x2 x3 x8 x9 x10) x4 x5 := rfl

theorem ref_v117 (x0 : (⟨S20000x128, .f32⟩ : BufTy).Contents (Elt F)) (x1 : (⟨S100000x128, .f32⟩ : BufTy).Contents (Elt F)) (x2 : (⟨S1000000, .i32⟩ : BufTy).Contents (Elt F)) (x3 : (⟨S1000000, .i32⟩ : BufTy).Contents (Elt F)) (x4 : (⟨S1000000, .i32⟩ : BufTy).Contents (Elt F)) (x5 : (⟨S1000000, .i32⟩ : BufTy).Contents (Elt F)) (x6 : (⟨S500000, .i32⟩ : BufTy).Contents (Elt F)) (x7 : (⟨S500000, .i32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128x128, .f32⟩ : BufTy).Contents (Elt F)) (x12 : (⟨S128, .f32⟩ : BufTy).Contents (Elt F)) (x13 : (⟨S128x128, .f32⟩ : BufTy).Contents (Elt F)) (x14 : (⟨S128x128, .f32⟩ : BufTy).Contents (Elt F)) (x15 : (⟨S128, .f32⟩ : BufTy).Contents (Elt F)) (x16 : (⟨S128x128, .f32⟩ : BufTy).Contents (Elt F)) (x17 : (⟨S128x128, .f32⟩ : BufTy).Contents (Elt F)) (x18 : (⟨S128, .f32⟩ : BufTy).Contents (Elt F)) (x19 : (⟨S128x128, .f32⟩ : BufTy).Contents (Elt F)) :
    val_main_v117 (F := F) x0 x1 x2 x3 x4 x5 x6 x7 x8 x9 x10 x11 x12 x13 x14 x15 x16 x17 x18 x19
      = decode (val_main_v101 (F := F) x0 x1 x2 x3 x4 x5 x8 x9 x10 x11 x12 x13 x17 x18 x19)
          (val_main_v76 (F := F) x0 x1 x2 x3 x4 x5 x8 x9 x10 x11 x12 x13 x14 x15 x16) x6 x7 := rfl

/-! ## The first stretch -/

set_option maxHeartbeats 4000000 in
theorem W1_v35 (c : Dev nD) : W1 m ρ c (Proc.devRef .tc main_call0_v35) = val_main_v9 (F := F) (A0 m c) (A2 m c) (A3 m c) := by
  unfold W1
  simp only [hostOps0]
  after_results_simp
  rfl

set_option maxHeartbeats 4000000 in
theorem W1_v8 (c : Dev nD) : W1 m ρ c (Proc.devRef .tc main_call0_v8) = (broadcastInDim S100000x1 ![0] bcast_S100000_S100000x1_0 (Host.divf (broadcastInDim S100000 ![] bcast_S_S100000 (constant (F := F) S_ .f32 0x3F800000#32)) (val_main_v15 (F := F) (A3 m c))) : (⟨S100000x1, .f32⟩ : BufTy).Contents (Elt F)) := by
  unfold W1
  simp only [hostOps0]
  after_results_simp
  rfl

set_option maxHeartbeats 4000000 in
theorem W1_v17 (c : Dev nD) : W1 m ρ c (Proc.devRef .tc main_call0_v17) = (broadcastInDim S20000x1 ![0] bcast_S20000_S20000x1_0 (Host.divf (broadcastInDim S20000 ![] bcast_S_S20000 (constant (F := F) S_ .f32 0x3F800000#32)) (val_main_v41 (F := F) (A5 m c))) : (⟨S20000x1, .f32⟩ : BufTy).Contents (Elt F)) := by
  unfold W1
  simp only [hostOps0]
  after_results_simp
  rfl

set_option maxHeartbeats 4000000 in
theorem W1_v18 (c : Dev nD) : W1 m ρ c (Proc.devRef .tc main_call0_v18) = (truncf .bf16 (A8 m c) bitsLt_bf16_f32 : (⟨S128x128, .bf16⟩ : BufTy).Contents (Elt F)) := by
  unfold W1
  simp only [hostOps0]
  after_results_simp
  rfl

set_option maxHeartbeats 4000000 in
theorem W1_v19 (c : Dev nD) : W1 m ρ c (Proc.devRef .tc main_call0_v19) = (truncf .bf16 (A10 m c) bitsLt_bf16_f32 : (⟨S128x128, .bf16⟩ : BufTy).Contents (Elt F)) := by
  unfold W1
  simp only [hostOps0]
  after_results_simp
  rfl

set_option maxHeartbeats 4000000 in
theorem W1_v20 (c : Dev nD) : W1 m ρ c (Proc.devRef .tc main_call0_v20) = (truncf .bf16 (A11 m c) bitsLt_bf16_f32 : (⟨S128x128, .bf16⟩ : BufTy).Contents (Elt F)) := by
  unfold W1
  simp only [hostOps0]
  after_results_simp
  rfl

set_option maxHeartbeats 4000000 in
theorem W1_v21 (c : Dev nD) : W1 m ρ c (Proc.devRef .tc main_call0_v21) = (truncf .bf16 (A13 m c) bitsLt_bf16_f32 : (⟨S128x128, .bf16⟩ : BufTy).Contents (Elt F)) := by
  unfold W1
  simp only [hostOps0]
  after_results_simp
  rfl

set_option maxHeartbeats 4000000 in
theorem W1_v22 (c : Dev nD) : W1 m ρ c (Proc.devRef .tc main_call0_v22) = (truncf .bf16 (A14 m c) bitsLt_bf16_f32 : (⟨S128x128, .bf16⟩ : BufTy).Contents (Elt F)) := by
  unfold W1
  simp only [hostOps0]
  after_results_simp
  rfl

set_option maxHeartbeats 4000000 in
theorem W1_v23 (c : Dev nD) : W1 m ρ c (Proc.devRef .tc main_call0_v23) = (truncf .bf16 (A16 m c) bitsLt_bf16_f32 : (⟨S128x128, .bf16⟩ : BufTy).Contents (Elt F)) := by
  unfold W1
  simp only [hostOps0]
  after_results_simp
  rfl

set_option maxHeartbeats 4000000 in
theorem W1_v24 (c : Dev nD) : W1 m ρ c (Proc.devRef .tc main_call0_v24) = (truncf .bf16 (A17 m c) bitsLt_bf16_f32 : (⟨S128x128, .bf16⟩ : BufTy).Contents (Elt F)) := by
  unfold W1
  simp only [hostOps0]
  after_results_simp
  rfl

set_option maxHeartbeats 4000000 in
theorem W1_v25 (c : Dev nD) : W1 m ρ c (Proc.devRef .tc main_call0_v25) = (truncf .bf16 (A19 m c) bitsLt_bf16_f32 : (⟨S128x128, .bf16⟩ : BufTy).Contents (Elt F)) := by
  unfold W1
  simp only [hostOps0]
  after_results_simp
  rfl

/-! ## The later stretches -/

set_option maxHeartbeats 4000000 in
theorem W3_v46 (c : Dev nD) : W3 m ρ c (Proc.devRef .tc main_call0_v46) = val_main_v35 (F := F) (A1 m c) (A4 m c) (A5 m c) := by
  unfold W3
  simp only [hostOps1]
  after_results_simp
  rw [argW2 m ρ c main_arg5 (by decide), argW2 m ρ c main_arg1 (by decide), argW2 m ρ c main_arg4 (by decide)]
  rfl

set_option maxHeartbeats 4000000 in
theorem W5_v58 (c : Dev nD) : W5 m ρ c (Proc.devRef .tc main_call0_v58) = agg2K_sm (W4 m ρ c (Proc.devRef .tc main_call0_v47)) (A2 m c) (A3 m c) := by
  unfold W5
  simp only [hostOps2]
  after_results_simp
  rw [argW4 m ρ c main_arg3 (by decide), argW4 m ρ c main_arg2 (by decide)]
  rfl

set_option maxHeartbeats 4000000 in
theorem W7_v70 (c : Dev nD) : W7 m ρ c (Proc.devRef .tc main_call0_v70) = agg2K_ms (W6 m ρ c (Proc.devRef .tc main_call0_v36)) (A4 m c) (A5 m c) := by
  unfold W7
  simp only [hostOps3]
  after_results_simp
  rw [argW6 m ρ c main_arg5 (by decide), argW6 m ρ c main_arg4 (by decide)]
  rfl

set_option maxHeartbeats 4000000 in
theorem W9_v0 (c : Dev nD) : W9 m ρ c (Proc.devRef .tc main_v0) = decode (W8 m ρ c (Proc.devRef .tc main_call0_v71)) (W8 m ρ c (Proc.devRef .tc main_call0_v59)) (A6 m c) (A7 m c) := by
  unfold W9
  simp only [hostOps4]
  after_results_simp
  rw [argW8 m ρ c main_arg6 (by decide), argW8 m ρ c main_arg7 (by decide)]
  rfl

end Cert.KernelIdeal.HostValue

end
-- ==== Proof.Region0.lean ====
import proofs.«428911_j46093589020843_3_alg».proof.Proof.Gen.KernelIdeal.Frame
import proofs.«428911_j46093589020843_3_alg».proof.Proof.Combine
import Idealize.ShloMosaic.Lib.ValueIdx
import Idealize.ShloMosaic.Lib.Pipeline.Value
import Idealize.ShloMosaic.PureOps.Ideal.Laws

set_option maxRecDepth 16384

noncomputable section

namespace Cert.KernelIdeal.Region0

open Idealize.ShloMosaic Idealize.ShloMosaic.TcCoe Idealize.ShloMosaic.ValueIdx
open Idealize.ShloMosaic.Pipeline (Dat Cfg Window)
open Cert.KernelIdeal Cert.KernelIdeal.Gen

/-- The contraction of the block's matrix product runs over one axis of 128 entries: at output entry `(p, q)` the left
    operand is read at `(p, k)` and the right at `(k, q)`. -/
theorem lhs_ax0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_ax1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
theorem rhs_ax0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
theorem rhs_ax1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, read at an entry: the plain sum over the 128 contracted positions. -/
theorem block_matmul_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- The row factor laid along the 128 columns, read at an entry. -/
theorem scale_apply (x1 : Vec Ideal S5000x1 .f32) (p : Fin 5000) (k : Fin 128) :
    broadcastTo S5000x128 x1 broadcasts_S5000x1_S5000x128 (ix2 p k) = x1 (ix2 p (0 : Fin 1)) :=
  broadcastTo_apply x1 broadcasts_S5000x1_S5000x128 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-- The bias laid along the 5000 rows, read at an entry. -/
theorem bias_apply (x4 : Vec Ideal S128 .f32) (p : Fin 5000) (q : Fin 128) :
    broadcastTo S5000x128 (shapeCast S1x128 x4 shapeCasts_S128_S1x128) broadcasts_S1x128_S5000x128 (ix2 p q) = x4 (ix1 q) := by
  rw [broadcastTo_apply (shapeCast S1x128 x4 shapeCasts_S128_S1x128) broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact shapeCast_apply x4 shapeCasts_S128_S1x128 (ix2 (0 : Fin 1) q) (ix1 q) (by
    rw [Shape.rowMajor_val_two, Shape.rowMajor_val_one]
    show q.val = 0 * 128 + q.val
    omega)

/-- The body's stored value at entry `(p, q)` of the block: the combine's entry, clamped below at zero. -/
theorem pay_apply (x0 : Vec Ideal S5000x128 .f32) (x1 : Vec Ideal S5000x1 .f32) (x2 : Vec Ideal S5000x128 .f32)
    (x3 : Vec Ideal S128x128 .bf16) (x4 : Vec Ideal S128 .f32) (x5 : Vec Ideal S128x128 .bf16) (p : Fin 5000) (q : Fin 128) :
    k0_pay1 x0 x1 x2 x3 x4 x5 (ix2 p q)
      = max (Combine.entryMul (n := 5000) x0 x1 x2 x3 x4 x5 p q) (Ideal.ofBits .f32 0x00000000#32) := by
  unfold k0_pay1
  rw [shapeCast_self, shapeCast_self, shapeCast_self, shapeCast_self]
  show max ((matmul (F := Ideal) dot_S5000x128_S128x128_S5000x128_1_0_0_1_n_n none (truncf (F := Ideal) .bf16 (mulf x0 (broadcastTo S5000x128 x1 broadcasts_S5000x1_S5000x128)) bitsLt_bf16_f32) x3 (constant S5000x128 .f32 0x00000000#32) (ix2 p q)
      + broadcastTo S5000x128 (shapeCast S1x128 x4 shapeCasts_S128_S1x128) broadcasts_S1x128_S5000x128 (ix2 p q))
      + matmul (F := Ideal) dot_S5000x128_S128x128_S5000x128_1_0_0_1_n_n none (truncf (F := Ideal) .bf16 x2 bitsLt_bf16_f32) x5 (constant S5000x128 .f32 0x00000000#32) (ix2 p q))
      (Ideal.ofBits .f32 0x00000000#32) = _
  rw [block_matmul_apply, block_matmul_apply, bias_apply]
  have e1 : ∀ k : Fin 128, (truncf (F := Ideal) .bf16 (mulf x0 (broadcastTo S5000x128 x1 broadcasts_S5000x1_S5000x128)) bitsLt_bf16_f32) (ix2 p k) = x0 (ix2 p k) * x1 (ix2 p (0 : Fin 1)) := fun k => by
    show x0 (ix2 p k) * broadcastTo S5000x128 x1 broadcasts_S5000x1_S5000x128 (ix2 p k) = _
    rw [scale_apply]
  simp only [e1]
  rfl

/-! ## From the blocks to the array -/

theorem hz : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- Row `p` of grid point `t`'s block is row `5000 · t + p` of the array. -/
def rowOf (t : Fin cfg0.N) (p : Fin 5000) : Fin 100000 := ⟨t.val * 5000 + p.val, by
  have ht : t.val < 20 := t.isLt
  have hp := p.isLt
  omega⟩

/-- What the region leaves in its output array: at every entry the combine of the arrays the region finds, clamped below
    at zero. -/
def G (c : Dev nD) : S100000x128.Idx → EReal := fun i =>
  max (Combine.entryMul (n := 100000) (V c main_call0_v35) (V c main_call0_v8) (V c main_arg1) (V c main_call0_v18)
    (V c main_arg9) (V c main_call0_v19) (i 0) (i 1)) (Ideal.ofBits .f32 0x00000000#32)

/-- The printed index maps, decided over the grid: the three row-blocked inputs and the output take block `t` of the rows,
    the weights and the bias their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem read0 (c : Dev nD) (t : Fin cfg0.N) (p : Fin 5000) (k : Fin 128) :
    iblk0 V c 0 t (ix2 p k) = V c main_call0_v35 (ix2 (rowOf t p) k) := by
  show V c main_call0_v35 (((cfg0.win 0).blk t).view.emb (ix2 p k)) = V c main_call0_v35 (ix2 (rowOf t p) k)
  refine congrArg _ (funext fun a => Fin.ext ?_)
  obtain ⟨e0, e1, -⟩ := idx_facts t
  match a with
  | ⟨0, _⟩ => show win0_0.index t (0 : Fin 2) * 5000 + 1 * p.val = t.val * 5000 + p.val; omega
  | ⟨1, _⟩ => show win0_0.index t (1 : Fin 2) * 128 + 1 * k.val = k.val; omega

theorem read1 (c : Dev nD) (t : Fin cfg0.N) (p : Fin 5000) :
    iblk0 V c 1 t (ix2 p (0 : Fin 1)) = V c main_call0_v8 (ix2 (rowOf t p) (0 : Fin 1)) := by
  show V c main_call0_v8 (((cfg0.win 1).blk t).view.emb (ix2 p (0 : Fin 1))) = V c main_call0_v8 (ix2 (rowOf t p) (0 : Fin 1))
  refine congrArg _ (funext fun a => Fin.ext ?_)
  obtain ⟨-, -, e0, e1, -⟩ := idx_facts t
  match a with
  | ⟨0, _⟩ => show win0_1.index t (0 : Fin 2) * 5000 + 1 * p.val = t.val * 5000 + p.val; omega
  | ⟨1, _⟩ => show win0_1.index t (1 : Fin 2) * 1 + 1 * 0 = 0; omega

theorem read2 (c : Dev nD) (t : Fin cfg0.N) (p : Fin 5000) (k : Fin 128) :
    iblk0 V c 2 t (ix2 p k) = V c main_arg1 (ix2 (rowOf t p) k) := by
  show V c main_arg1 (((cfg0.win 2).blk t).view.emb (ix2 p k)) = V c main_arg1 (ix2 (rowOf t p) k)
  refine congrArg _ (funext fun a => Fin.ext ?_)
  obtain ⟨-, -, -, -, e0, e1, -⟩ := idx_facts t
  match a with
  | ⟨0, _⟩ => show win0_2.index t (0 : Fin 2) * 5000 + 1 * p.val = t.val * 5000 + p.val; omega
  | ⟨1, _⟩ => show win0_2.index t (1 : Fin 2) * 128 + 1 * k.val = k.val; omega

theorem read3 (c : Dev nD) (t : Fin cfg0.N) (k q : Fin 128) :
    iblk0 V c 3 t (ix2 k q) = V c main_call0_v18 (ix2 k q) := by
  show V c main_call0_v18 (((cfg0.win 3).blk t).view.emb (ix2 k q)) = V c main_call0_v18 (ix2 k q)
  refine congrArg _ (funext fun a => Fin.ext ?_)
  obtain ⟨-, -, -, -, -, -, e0, e1, -⟩ := idx_facts t
  match a with
  | ⟨0, _⟩ => show win0_3.index t (0 : Fin 2) * 128 + 1 * k.val = k.val; omega
  | ⟨1, _⟩ => show win0_3.index t (1 : Fin 2) * 128 + 1 * q.val = q.val; omega

theorem read4 (c : Dev nD) (t : Fin cfg0.N) (q : Fin 128) :
    iblk0 V c 4 t (ix1 q) = V c main_arg9 (ix1 q) := by
  show V c main_arg9 (((cfg0.win 4).blk t).view.emb (ix1 q)) = V c main_arg9 (ix1 q)
  refine congrArg _ (funext fun a => Fin.ext ?_)
  obtain ⟨-, -, -, -, -, -, -, -, e0, -⟩ := idx_facts t
  match a with
  | ⟨0, _⟩ => show win0_4.index t (0 : Fin 1) * 128 + 1 * q.val = q.val; omega

theorem read5 (c : Dev nD) (t : Fin cfg0.N) (k q : Fin 128) :
    iblk0 V c 5 t (ix2 k q) = V c main_call0_v19 (ix2 k q) := by
  show V c main_call0_v19 (((cfg0.win 5).blk t).view.emb (ix2 k q)) = V c main_call0_v19 (ix2 k q)
  refine congrArg _ (funext fun a => Fin.ext ?_)
  obtain ⟨-, -, -, -, -, -, -, -, -, e0, e1, -⟩ := idx_facts t
  match a with
  | ⟨0, _⟩ => show win0_5.index t (0 : Fin 2) * 128 + 1 * k.val = k.val; omega
  | ⟨1, _⟩ => show win0_5.index t (1 : Fin 2) * 128 + 1 * q.val = q.val; omega

/-- Entry `(p, q)` of the output's block `t` sits at `(5000 · t + p, q)` of the array. -/
theorem emb6 (t : Fin cfg0.N) (p : Fin 5000) (q : Fin 128) :
    ((cfg0.win 6).blk t).view.emb (ix2 p q) = ix2 (rowOf t p) q := by
  refine funext fun a => Fin.ext ?_
  obtain ⟨-, -, -, -, -, -, -, -, -, -, -, e0, e1⟩ := idx_facts t
  match a with
  | ⟨0, _⟩ => show win0_6.index t (0 : Fin 2) * 5000 + 1 * p.val = t.val * 5000 + p.val; omega
  | ⟨1, _⟩ => show win0_6.index t (1 : Fin 2) * 128 + 1 * q.val = q.val; omega

/-- What grid point `t` writes back is block `t` of `G`. -/
theorem flushed_eq (c : Dev nD) (t : Fin cfg0.N) :
    (dat0 (F := Ideal) V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz, View.ld_unit_zero (S := S128) hz1]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 4 t) (iblk0 V c 5 t) (ix2 p q)
    = G V c (((cfg0.win 6).blk t).view.emb (ix2 p q))
  refine (pay_apply (iblk0 V c 0 t) (iblk0 V c 1 t) (iblk0 V c 2 t) (iblk0 V c 3 t) (iblk0 V c 4 t) (iblk0 V c 5 t) p q).trans ?_
  rw [emb6]
  unfold G Combine.entryMul
  simp only [read0 V c t, read1 V c t, read2 V c t, read3 V c t, read4 V c t, read5 V c t]

/-- An entry of the array is in grid point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_call0_v36).slice (win0_6.rect t)).set ↔ _
  rw [View.set_slice_whole, Rect.mem_set_unit]
  exact Iff.rfl

/-- Every entry of the array lies in the block of the grid point that owns its row: row `r` is in block `r / 5000`. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have ht : (i 0).val / 5000 < 20 := by omega
  obtain ⟨-, -, -, -, -, -, -, -, -, -, -, e0, e1⟩ := idx_facts ⟨(i 0).val / 5000, ht⟩
  refine ⟨⟨(i 0).val / 5000, ht⟩, flush0_6 _, ?_⟩
  rw [mem_blk]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    rw [e1]
    omega

/-- The output array when the region is left: the combine of the arrays the region found, clamped below at zero, entry by
    entry. -/
theorem value (c : Dev nD) : (dat0 (F := Ideal) V c).arrAt 6 cfg0.N = G V c :=
  (dat0 V c).arrAt_eq_of_cover 6 (G V c) (fun t _ => flushed_eq V c t) (cover)

end Cert.KernelIdeal.Region0

end
-- ==== Proof.Region1.lean ====
import proofs.«428911_j46093589020843_3_alg».proof.Proof.Gen.KernelIdeal.Frame
import proofs.«428911_j46093589020843_3_alg».proof.Proof.Combine
import Idealize.ShloMosaic.Lib.ValueIdx
import Idealize.ShloMosaic.Lib.Pipeline.Value
import Idealize.ShloMosaic.PureOps.Ideal.Laws

set_option maxRecDepth 16384

noncomputable section

namespace Cert.KernelIdeal.Region1

open Idealize.ShloMosaic Idealize.ShloMosaic.TcCoe Idealize.ShloMosaic.ValueIdx
open Idealize.ShloMosaic.Pipeline (Dat Cfg Window)
open Cert.KernelIdeal Cert.KernelIdeal.Gen

/-- The contraction of the block's matrix product runs over one axis of 128 entries: at output entry `(p, q)` the left
    operand is read at `(p, k)` and the right at `(k, q)`. -/
theorem lhs_ax0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_ax1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
theorem rhs_ax0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
theorem rhs_ax1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, read at an entry: the plain sum over the 128 contracted positions. -/
theorem block_matmul_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- The row factor laid along the 128 columns, read at an entry. -/
theorem scale_apply (x1 : Vec Ideal S5000x1 .f32) (p : Fin 5000) (k : Fin 128) :
    broadcastTo S5000x128 x1 broadcasts_S5000x1_S5000x128 (ix2 p k) = x1 (ix2 p (0 : Fin 1)) :=
  broadcastTo_apply x1 broadcasts_S5000x1_S5000x128 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-- The bias laid along the 5000 rows, read at an entry. -/
theorem bias_apply (x4 : Vec Ideal S128 .f32) (p : Fin 5000) (q : Fin 128) :
    broadcastTo S5000x128 (shapeCast S1x128 x4 shapeCasts_S128_S1x128) broadcasts_S1x128_S5000x128 (ix2 p q) = x4 (ix1 q) := by
  rw [broadcastTo_apply (shapeCast S1x128 x4 shapeCasts_S128_S1x128) broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact shapeCast_apply x4 shapeCasts_S128_S1x128 (ix2 (0 : Fin 1) q) (ix1 q) (by
    rw [Shape.rowMajor_val_two, Shape.rowMajor_val_one]
    show q.val = 0 * 128 + q.val
    omega)

/-- The body's stored value at entry `(p, q)` of the block: the combine's entry, clamped below at zero. -/
theorem pay_apply (x0 : Vec Ideal S5000x128 .f32) (x1 : Vec Ideal S5000x1 .f32) (x2 : Vec Ideal S5000x128 .f32)
    (x3 : Vec Ideal S128x128 .bf16) (x4 : Vec Ideal S128 .f32) (x5 : Vec Ideal S128x128 .bf16) (p : Fin 5000) (q : Fin 128) :
    k1_pay1 x0 x1 x2 x3 x4 x5 (ix2 p q)
      = max (Combine.entryMul (n := 5000) x0 x1 x2 x3 x4 x5 p q) (Ideal.ofBits .f32 0x00000000#32) := by
  unfold k1_pay1
  rw [shapeCast_self, shapeCast_self, shapeCast_self, shapeCast_self]
  show max ((matmul (F := Ideal) dot_S5000x128_S128x128_S5000x128_1_0_0_1_n_n none (truncf (F := Ideal) .bf16 (mulf x0 (broadcastTo S5000x128 x1 broadcasts_S5000x1_S5000x128)) bitsLt_bf16_f32) x3 (constant S5000x128 .f32 0x00000000#32) (ix2 p q)
      + broadcastTo S5000x128 (shapeCast S1x128 x4 shapeCasts_S128_S1x128) broadcasts_S1x128_S5000x128 (ix2 p q))
      + matmul (F := Ideal) dot_S5000x128_S128x128_S5000x128_1_0_0_1_n_n none (truncf (F := Ideal) .bf16 x2 bitsLt_bf16_f32) x5 (constant S5000x128 .f32 0x00000000#32) (ix2 p q))
      (Ideal.ofBits .f32 0x00000000#32) = _
  rw [block_matmul_apply, block_matmul_apply, bias_apply]
  have e1 : ∀ k : Fin 128, (truncf (F := Ideal) .bf16 (mulf x0 (broadcastTo S5000x128 x1 broadcasts_S5000x1_S5000x128)) bitsLt_bf16_f32) (ix2 p k) = x0 (ix2 p k) * x1 (ix2 p (0 : Fin 1)) := fun k => by
    show x0 (ix2 p k) * broadcastTo S5000x128 x1 broadcasts_S5000x1_S5000x128 (ix2 p k) = _
    rw [scale_apply]
  simp only [e1]
  rfl

/-! ## From the blocks to the array -/

theorem hz : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- Row `p` of grid point `t`'s block is row `5000 · t + p` of the array. -/
def rowOf (t : Fin cfg1.N) (p : Fin 5000) : Fin 20000 := ⟨t.val * 5000 + p.val, by
  have ht : t.val < 4 := t.isLt
  have hp := p.isLt
  omega⟩

/-- What the region leaves in its output array: at every entry the combine of the arrays the region finds, clamped below
    at zero. -/
def G (c : Dev nD) : S20000x128.Idx → EReal := fun i =>
  max (Combine.entryMul (n := 20000) (V c main_call0_v46) (V c main_call0_v17) (V c main_arg0) (V c main_call0_v20)
    (V c main_arg12) (V c main_call0_v21) (i 0) (i 1)) (Ideal.ofBits .f32 0x00000000#32)

/-- The printed index maps, decided over the grid: the three row-blocked inputs and the output take block `t` of the rows,
    the weights and the bias their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem read0 (c : Dev nD) (t : Fin cfg1.N) (p : Fin 5000) (k : Fin 128) :
    iblk1 V c 0 t (ix2 p k) = V c main_call0_v46 (ix2 (rowOf t p) k) := by
  show V c main_call0_v46 (((cfg1.win 0).blk t).view.emb (ix2 p k)) = V c main_call0_v46 (ix2 (rowOf t p) k)
  refine congrArg _ (funext fun a => Fin.ext ?_)
  obtain ⟨e0, e1, -⟩ := idx_facts t
  match a with
  | ⟨0, _⟩ => show win1_0.index t (0 : Fin 2) * 5000 + 1 * p.val = t.val * 5000 + p.val; omega
  | ⟨1, _⟩ => show win1_0.index t (1 : Fin 2) * 128 + 1 * k.val = k.val; omega

theorem read1 (c : Dev nD) (t : Fin cfg1.N) (p : Fin 5000) :
    iblk1 V c 1 t (ix2 p (0 : Fin 1)) = V c main_call0_v17 (ix2 (rowOf t p) (0 : Fin 1)) := by
  show V c main_call0_v17 (((cfg1.win 1).blk t).view.emb (ix2 p (0 : Fin 1))) = V c main_call0_v17 (ix2 (rowOf t p) (0 : Fin 1))
  refine congrArg _ (funext fun a => Fin.ext ?_)
  obtain ⟨-, -, e0, e1, -⟩ := idx_facts t
  match a with
  | ⟨0, _⟩ => show win1_1.index t (0 : Fin 2) * 5000 + 1 * p.val = t.val * 5000 + p.val; omega
  | ⟨1, _⟩ => show win1_1.index t (1 : Fin 2) * 1 + 1 * 0 = 0; omega

theorem read2 (c : Dev nD) (t : Fin cfg1.N) (p : Fin 5000) (k : Fin 128) :
    iblk1 V c 2 t (ix2 p k) = V c main_arg0 (ix2 (rowOf t p) k) := by
  show V c main_arg0 (((cfg1.win 2).blk t).view.emb (ix2 p k)) = V c main_arg0 (ix2 (rowOf t p) k)
  refine congrArg _ (funext fun a => Fin.ext ?_)
  obtain ⟨-, -, -, -, e0, e1, -⟩ := idx_facts t
  match a with
  | ⟨0, _⟩ => show win1_2.index t (0 : Fin 2) * 5000 + 1 * p.val = t.val * 5000 + p.val; omega
  | ⟨1, _⟩ => show win1_2.index t (1 : Fin 2) * 128 + 1 * k.val = k.val; omega

theorem read3 (c : Dev nD) (t : Fin cfg1.N) (k q : Fin 128) :
    iblk1 V c 3 t (ix2 k q) = V c main_call0_v20 (ix2 k q) := by
  show V c main_call0_v20 (((cfg1.win 3).blk t).view.emb (ix2 k q)) = V c main_call0_v20 (ix2 k q)
  refine congrArg _ (funext fun a => Fin.ext ?_)
  obtain ⟨-, -, -, -, -, -, e0, e1, -⟩ := idx_facts t
  match a with
  | ⟨0, _⟩ => show win1_3.index t (0 : Fin 2) * 128 + 1 * k.val = k.val; omega
  | ⟨1, _⟩ => show win1_3.index t (1 : Fin 2) * 128 + 1 * q.val = q.val; omega

theorem read4 (c : Dev nD) (t : Fin cfg1.N) (q : Fin 128) :
    iblk1 V c 4 t (ix1 q) = V c main_arg12 (ix1 q) := by
  show V c main_arg12 (((cfg1.win 4).blk t).view.emb (ix1 q)) = V c main_arg12 (ix1 q)
  refine congrArg _ (funext fun a => Fin.ext ?_)
  obtain ⟨-, -, -, -, -, -, -, -, e0, -⟩ := idx_facts t
  match a with
  | ⟨0, _⟩ => show win1_4.index t (0 : Fin 1) * 128 + 1 * q.val = q.val; omega

theorem read5 (c : Dev nD) (t : Fin cfg1.N) (k q : Fin 128) :
    iblk1 V c 5 t (ix2 k q) = V c main_call0_v21 (ix2 k q) := by
  show V c main_call0_v21 (((cfg1.win 5).blk t).view.emb (ix2 k q)) = V c main_call0_v21 (ix2 k q)
  refine congrArg _ (funext fun a => Fin.ext ?_)
  obtain ⟨-, -, -, -, -, -, -, -, -, e0, e1, -⟩ := idx_facts t
  match a with
  | ⟨0, _⟩ => show win1_5.index t (0 : Fin 2) * 128 + 1 * k.val = k.val; omega
  | ⟨1, _⟩ => show win1_5.index t (1 : Fin 2) * 128 + 1 * q.val = q.val; omega

/-- Entry `(p, q)` of the output's block `t` sits at `(5000 · t + p, q)` of the array. -/
theorem emb6 (t : Fin cfg1.N) (p : Fin 5000) (q : Fin 128) :
    ((cfg1.win 6).blk t).view.emb (ix2 p q) = ix2 (rowOf t p) q := by
  refine funext fun a => Fin.ext ?_
  obtain ⟨-, -, -, -, -, -, -, -, -, -, -, e0, e1⟩ := idx_facts t
  match a with
  | ⟨0, _⟩ => show win1_6.index t (0 : Fin 2) * 5000 + 1 * p.val = t.val * 5000 + p.val; omega
  | ⟨1, _⟩ => show win1_6.index t (1 : Fin 2) * 128 + 1 * q.val = q.val; omega

/-- What grid point `t` writes back is block `t` of `G`. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz, View.ld_unit_zero (S := S128) hz1]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q)
    = G V c (((cfg1.win 6).blk t).view.emb (ix2 p q))
  refine (pay_apply (iblk1 V c 0 t) (iblk1 V c 1 t) (iblk1 V c 2 t) (iblk1 V c 3 t) (iblk1 V c 4 t) (iblk1 V c 5 t) p q).trans ?_
  rw [emb6]
  unfold G Combine.entryMul
  simp only [read0 V c t, read1 V c t, read2 V c t, read3 V c t, read4 V c t, read5 V c t]

/-- An entry of the array is in grid point `t`'s block iff each coordinate is in the block's range on its axis. -/
theorem mem_blk (t : Fin cfg1.N) (i : S20000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_call0_v47).slice (win1_6.rect t)).set ↔ _
  rw [View.set_slice_whole, Rect.mem_set_unit]
  exact Iff.rfl

/-- Every entry of the array lies in the block of the grid point that owns its row: row `r` is in block `r / 5000`. -/
theorem cover (i : S20000x128.Idx) : ∃ t : Fin cfg1.N, (cfg1.win 6).flush t = true ∧ i ∈ ((cfg1.win 6).blk t).view.set := by
  have hi0 : (i 0).val < 20000 := (i 0).isLt
  have hi1 : (i 1).val < 128 := (i 1).isLt
  have ht : (i 0).val / 5000 < 4 := by omega
  obtain ⟨-, -, -, -, -, -, -, -, -, -, -, e0, e1⟩ := idx_facts ⟨(i 0).val / 5000, ht⟩
  refine ⟨⟨(i 0).val / 5000, ht⟩, flush1_6 _, ?_⟩
  rw [mem_blk]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    rw [e1]
    omega

/-- The output array when the region is left: the combine of the arrays the region found, clamped below at zero, entry by
    entry. -/
theorem value (c : Dev nD) : (dat1 (F := Ideal) V c).arrAt 6 cfg1.N = G V c :=
  (dat1 V c).arrAt_eq_of_cover 6 (G V c) (fun t _ => flushed_eq V c t) (cover)

end Cert.KernelIdeal.Region1

end
-- ==== Proof.Layer1.lean ====
/-
  Layer 1 of the kernel's program is the reference's layer 1, at the ideal values.

  Before a region the host has computed the relation's aggregate (a scatter-add of gathered source rows) and the
  reciprocal of the clamped in-degree; the region forms the combine block by block with the product by that reciprocal.
  Entry by entry this is the reference's quotient form of the same combine: the clamped in-degree is at least one, so
  dividing by it is multiplying by its reciprocal. Rounding the weights to the narrow format changes nothing at the
  ideal values.
-/
import proofs.«428911_j46093589020843_3_alg».proof.Proof.Gen.KernelIdeal.Frame
import proofs.«428911_j46093589020843_3_alg».proof.Proof.Gen.ReferenceIdeal.Read
import proofs.«428911_j46093589020843_3_alg».proof.Proof.Combine
import proofs.«428911_j46093589020843_3_alg».proof.Proof.Region0
import proofs.«428911_j46093589020843_3_alg».proof.Proof.Region1
import proofs.«428911_j46093589020843_3_alg».proof.Proof.RefLayers
import proofs.«428911_j46093589020843_3_alg».proof.Proof.HostKeep
import proofs.«428911_j46093589020843_3_alg».proof.Proof.HostFacts
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.HostValue

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read Cert.ReferenceIdeal.Layers

variable (m : (ℓ : Loc nD τ sig) → Buf (Elt Ideal) ℓ) (ρ : Dev nD → PrngReg)

/-- Rounding to the narrow float format is the identity on the extended reals. -/
theorem truncf_id {s : Shape} (x : s.Idx → EReal) : truncf (F := Ideal) (s := s) (φ := .f32) .bf16 x bitsLt_bf16_f32 = x := rfl

/-- One over a clamped count, read off the host's form at a row. -/
theorem recip_at {n : Nat} (hb : (⟨0, ![]⟩ : Shape).BroadcastsInDim ⟨1, ![n]⟩ ![]) (cnt : (⟨1, ![n]⟩ : Shape).Idx → EReal) (j : (⟨1, ![n]⟩ : Shape).Idx) :
    Host.divf (F := Ideal) (s := ⟨1, ![n]⟩) (φ := .f32) (broadcastInDim ⟨1, ![n]⟩ ![] hb (constant (F := Ideal) ⟨0, ![]⟩ .f32 0x3F800000#32))
      (fun j => max (cnt j) (Ideal.ofBits .f32 Combine.oneW)) j
      = Ideal.div (Ideal.ofBits .f32 Combine.oneW) (max (cnt j) (Ideal.ofBits .f32 Combine.oneW)) := rfl

/-- The reciprocal column at a row: one over the in-degree clamped below at one. -/
theorem W1_v8_apply (c : Dev nD) (p : Fin 100000) :
    W1 m ρ c (Proc.devRef .tc main_call0_v8) (ix2 (n0 := 100000) (n1 := 1) p 0)
      = Ideal.div (Ideal.ofBits .f32 Combine.oneW) (max (val_main_v13 (F := Ideal) (A3 m c) (ix1 (n := 100000) p)) (Ideal.ofBits .f32 Combine.oneW)) := by
  rw [W1_v8 (F := Ideal) m ρ c, clamp_v15]
  generalize val_main_v13 (F := Ideal) (A3 m c) = cnt
  rw [broadcastInDim_apply _ bcast_S100000_S100000x1_0 _ (ix2 (n0 := 100000) (n1 := 1) p 0) (ix1 (n := 100000) p) (fun a => match a with
    | ⟨0, _⟩ => by show p.val = if (100000 : Nat) = 1 then 0 else p.val; rw [if_neg (by decide)])]
  exact recip_at _ cnt _

/-- The reciprocal column at a row: one over the in-degree clamped below at one. -/
theorem W1_v17_apply (c : Dev nD) (p : Fin 20000) :
    W1 m ρ c (Proc.devRef .tc main_call0_v17) (ix2 (n0 := 20000) (n1 := 1) p 0)
      = Ideal.div (Ideal.ofBits .f32 Combine.oneW) (max (val_main_v39 (F := Ideal) (A5 m c) (ix1 (n := 20000) p)) (Ideal.ofBits .f32 Combine.oneW)) := by
  rw [W1_v17 (F := Ideal) m ρ c, clamp_v41]
  generalize val_main_v39 (F := Ideal) (A5 m c) = cnt
  rw [broadcastInDim_apply _ bcast_S20000_S20000x1_0 _ (ix2 (n0 := 20000) (n1 := 1) p 0) (ix1 (n := 20000) p) (fun a => match a with
    | ⟨0, _⟩ => by show p.val = if (20000 : Nat) = 1 then 0 else p.val; rw [if_neg (by decide)])]
  exact recip_at _ cnt _

/-! ## Region 0: the first relation -/

/-- After region 0 its output array is the reference's first layer-1 output. -/
theorem W2_v36 (c : Dev nD) : W2 m ρ c (Proc.devRef .tc main_call0_v36)
    = val_main_v25 (F := Ideal) (A0 m c) (A1 m c) (A2 m c) (A3 m c) (A8 m c) (A9 m c) (A10 m c) := by
  refine (W2_arr m ρ c 6).trans ((Region0.value (V1 m ρ) c).trans ?_)
  funext i
  rw [h_mrna_apply, clamp_v15]
  show max (Combine.entryMul (n := 100000) (W1 m ρ c (Proc.devRef .tc main_call0_v35)) (W1 m ρ c (Proc.devRef .tc main_call0_v8))
      (W1 m ρ c (Proc.devRef .tc main_arg1)) (W1 m ρ c (Proc.devRef .tc main_call0_v18)) (W1 m ρ c (Proc.devRef .tc main_arg9))
      (W1 m ρ c (Proc.devRef .tc main_call0_v19)) (i 0) (i 1)) (Ideal.ofBits .f32 0x00000000#32) = _
  rw [Combine.entryMul_eq_entryDiv (n := 100000) _ _ (val_main_v13 (F := Ideal) (A3 m c)) _ _ _ _ (i 0) (i 1) (W1_v8_apply m ρ c (i 0))]
  rw [W1_v35 (F := Ideal) m ρ c, argW1 m ρ c main_arg1 (by decide), W1_v18 (F := Ideal) m ρ c, argW1 m ρ c main_arg9 (by decide), W1_v19 (F := Ideal) m ρ c, truncf_id, truncf_id]

/-! ## Region 1: the second relation -/

/-- The second relation's reciprocal column is still there when region 1 is entered. -/
theorem W3_v17 (c : Dev nD) : W3 m ρ c (Proc.devRef .tc main_call0_v17) = W1 m ρ c (Proc.devRef .tc main_call0_v17) :=
  (keepH1 m ρ c main_call0_v17 (by decide)).trans (keepR0 m ρ c main_call0_v17 (by decide))
theorem W3_v20 (c : Dev nD) : W3 m ρ c (Proc.devRef .tc main_call0_v20) = W1 m ρ c (Proc.devRef .tc main_call0_v20) :=
  (keepH1 m ρ c main_call0_v20 (by decide)).trans (keepR0 m ρ c main_call0_v20 (by decide))
theorem W3_v21 (c : Dev nD) : W3 m ρ c (Proc.devRef .tc main_call0_v21) = W1 m ρ c (Proc.devRef .tc main_call0_v21) :=
  (keepH1 m ρ c main_call0_v21 (by decide)).trans (keepR0 m ρ c main_call0_v21 (by decide))

/-- After region 1 its output array is the reference's second layer-1 output. -/
theorem W4_v47 (c : Dev nD) : W4 m ρ c (Proc.devRef .tc main_call0_v47)
    = val_main_v51 (F := Ideal) (A0 m c) (A1 m c) (A4 m c) (A5 m c) (A11 m c) (A12 m c) (A13 m c) := by
  refine (W4_arr m ρ c 6).trans ((Region1.value (V3 m ρ) c).trans ?_)
  funext i
  rw [h_srna_apply, clamp_v41]
  show max (Combine.entryMul (n := 20000) (W3 m ρ c (Proc.devRef .tc main_call0_v46)) (W3 m ρ c (Proc.devRef .tc main_call0_v17))
      (W3 m ρ c (Proc.devRef .tc main_arg0)) (W3 m ρ c (Proc.devRef .tc main_call0_v20)) (W3 m ρ c (Proc.devRef .tc main_arg12))
      (W3 m ρ c (Proc.devRef .tc main_call0_v21)) (i 0) (i 1)) (Ideal.ofBits .f32 0x00000000#32) = _
  rw [Combine.entryMul_eq_entryDiv (n := 20000) _ _ (val_main_v39 (F := Ideal) (A5 m c)) _ _ _ _ (i 0) (i 1)
    ((congrFun (W3_v17 m ρ c) _).trans (W1_v17_apply m ρ c (i 0)))]
  rw [W3_v46 (F := Ideal) m ρ c, argW3 m ρ c main_arg0 (by decide), W3_v20, W1_v20 (F := Ideal) m ρ c, argW3 m ρ c main_arg12 (by decide), W3_v21, W1_v21 (F := Ideal) m ρ c, truncf_id, truncf_id]

end Cert.KernelIdeal.HostValue

end
-- ==== Proof.Layer2.lean ====
/-
  Layer 2 of the kernel's program is the reference's layer 2, and the decoder closes the comparison.

  The second layer's aggregates are host chains (gather, widen, scatter-add) applied to the first layer's outputs, which
  the regions of layer 1 left equal to the reference's; the reciprocal clamped in-degrees are reused from the first
  stretch, where the reference recomputes the same counts. Each region then forms the combine as in layer 1 (Combine's
  law again). The decoder is the same host chain on both sides, applied to equal embeddings.
-/
import proofs.«428911_j46093589020843_3_alg».proof.Proof.Gen.KernelIdeal.Frame
import proofs.«428911_j46093589020843_3_alg».proof.Proof.Gen.ReferenceIdeal.Read
import proofs.«428911_j46093589020843_3_alg».proof.Proof.Combine
import proofs.«428911_j46093589020843_3_alg».proof.Proof.Region2
import proofs.«428911_j46093589020843_3_alg».proof.Proof.Region3
import proofs.«428911_j46093589020843_3_alg».proof.Proof.RefLayers
import proofs.«428911_j46093589020843_3_alg».proof.Proof.HostKeep
import proofs.«428911_j46093589020843_3_alg».proof.Proof.HostFacts
import proofs.«428911_j46093589020843_3_alg».proof.Proof.Layer1
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.HostValue

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read Cert.ReferenceIdeal.Layers

variable (m : (ℓ : Loc nD τ sig) → Buf (Elt Ideal) ℓ) (ρ : Dev nD → PrngReg)

/-- Widening from the narrow float format is the identity on the extended reals. -/
theorem extf_id {s : Shape} (x : s.Idx → EReal) : extf (F := Ideal) (s := s) (φ := .bf16) .f32 x bitsLt_bf16_f32 = x := rfl

/-- The reference recomputes each relation's in-degree in the second layer: the same scatter-add of ones. -/
theorem ref_v65 {F : FTy → Type} [FloatOps F] (x3 : (⟨S1000000, .i32⟩ : BufTy).Contents (Elt F)) : val_main_v65 (F := F) x3 = val_main_v13 (F := F) x3 := rfl
theorem ref_v90 {F : FTy → Type} [FloatOps F] (x5 : (⟨S1000000, .i32⟩ : BufTy).Contents (Elt F)) : val_main_v90 (F := F) x5 = val_main_v39 (F := F) x5 := rfl

/-- At the ideal values the aggregate over the narrow-format array is the aggregate over the array. -/
theorem agg2K_sm_eq (h : (⟨S20000x128, .bf16⟩ : BufTy).Contents (Elt Ideal)) (src dst : (⟨S1000000, .i32⟩ : BufTy).Contents (Elt Ideal)) :
    agg2K_sm (F := Ideal) h src dst = agg2_sm (F := Ideal) h src dst := by
  unfold agg2K_sm agg2_sm
  rw [extf_id]
theorem agg2K_ms_eq (h : (⟨S100000x128, .bf16⟩ : BufTy).Contents (Elt Ideal)) (src dst : (⟨S1000000, .i32⟩ : BufTy).Contents (Elt Ideal)) :
    agg2K_ms (F := Ideal) h src dst = agg2_ms (F := Ideal) h src dst := by
  unfold agg2K_ms agg2_ms
  rw [extf_id]

/-! ## What region 2 finds -/

theorem W5_v8 (c : Dev nD) : W5 m ρ c (Proc.devRef .tc main_call0_v8) = W1 m ρ c (Proc.devRef .tc main_call0_v8) :=
  (keepH2 m ρ c main_call0_v8 (by decide)).trans ((keepR1 m ρ c main_call0_v8 (by decide)).trans ((keepH1 m ρ c main_call0_v8 (by decide)).trans ((keepR0 m ρ c main_call0_v8 (by decide)))))
theorem W5_v22 (c : Dev nD) : W5 m ρ c (Proc.devRef .tc main_call0_v22) = W1 m ρ c (Proc.devRef .tc main_call0_v22) :=
  (keepH2 m ρ c main_call0_v22 (by decide)).trans ((keepR1 m ρ c main_call0_v22 (by decide)).trans ((keepH1 m ρ c main_call0_v22 (by decide)).trans ((keepR0 m ρ c main_call0_v22 (by decide)))))
theorem W5_v23 (c : Dev nD) : W5 m ρ c (Proc.devRef .tc main_call0_v23) = W1 m ρ c (Proc.devRef .tc main_call0_v23) :=
  (keepH2 m ρ c main_call0_v23 (by decide)).trans ((keepR1 m ρ c main_call0_v23 (by decide)).trans ((keepH1 m ρ c main_call0_v23 (by decide)).trans ((keepR0 m ρ c main_call0_v23 (by decide)))))
theorem W5_v36 (c : Dev nD) : W5 m ρ c (Proc.devRef .tc main_call0_v36) = W2 m ρ c (Proc.devRef .tc main_call0_v36) :=
  (keepH2 m ρ c main_call0_v36 (by decide)).trans ((keepR1 m ρ c main_call0_v36 (by decide)).trans ((keepH1 m ρ c main_call0_v36 (by decide))))

/-- The second layer's aggregate over the first relation is the reference's. -/
theorem W5_v58_ref (c : Dev nD) : W5 m ρ c (Proc.devRef .tc main_call0_v58)
    = val_main_v61 (F := Ideal) (A0 m c) (A1 m c) (A2 m c) (A3 m c) (A4 m c) (A5 m c) (A11 m c) (A12 m c) (A13 m c) := by
  rw [W5_v58 (F := Ideal) m ρ c, agg2K_sm_eq, W4_v47, ref_v61]

/-- After region 2 its output array is the reference's first layer-2 output. -/
theorem W6_v59 (c : Dev nD) : W6 m ρ c (Proc.devRef .tc main_call0_v59)
    = val_main_v76 (F := Ideal) (A0 m c) (A1 m c) (A2 m c) (A3 m c) (A4 m c) (A5 m c) (A8 m c) (A9 m c) (A10 m c) (A11 m c) (A12 m c) (A13 m c) (A14 m c) (A15 m c) (A16 m c) := by
  refine (W6_arr m ρ c 6).trans ((Region2.value (V5 m ρ) c).trans ?_)
  funext i
  rw [z_mrna_apply, clamp_v67, ref_v65]
  show Combine.entryMul (n := 100000) (W5 m ρ c (Proc.devRef .tc main_call0_v58)) (W5 m ρ c (Proc.devRef .tc main_call0_v8))
      (W5 m ρ c (Proc.devRef .tc main_call0_v36)) (W5 m ρ c (Proc.devRef .tc main_call0_v22)) (W5 m ρ c (Proc.devRef .tc main_arg15))
      (W5 m ρ c (Proc.devRef .tc main_call0_v23)) (i 0) (i 1) = _
  rw [Combine.entryMul_eq_entryDiv (n := 100000) _ _ (val_main_v13 (F := Ideal) (A3 m c)) _ _ _ _ (i 0) (i 1)
    ((congrFun (W5_v8 m ρ c) _).trans (W1_v8_apply m ρ c (i 0)))]
  rw [W5_v58_ref, W5_v36, W2_v36, W5_v22, W1_v22 (F := Ideal) m ρ c, argW5 m ρ c main_arg15 (by decide), W5_v23, W1_v23 (F := Ideal) m ρ c, truncf_id, truncf_id]

/-! ## What region 3 finds -/

theorem W7_v17 (c : Dev nD) : W7 m ρ c (Proc.devRef .tc main_call0_v17) = W1 m ρ c (Proc.devRef .tc main_call0_v17) :=
  (keepH3 m ρ c main_call0_v17 (by decide)).trans ((keepR2 m ρ c main_call0_v17 (by decide)).trans ((keepH2 m ρ c main_call0_v17 (by decide)).trans ((keepR1 m ρ c main_call0_v17 (by decide)).trans ((keepH1 m ρ c main_call0_v17 (by decide)).trans ((keepR0 m ρ c main_call0_v17 (by decide)))))))
theorem W7_v24 (c : Dev nD) : W7 m ρ c (Proc.devRef .tc main_call0_v24) = W1 m ρ c (Proc.devRef .tc main_call0_v24) :=
  (keepH3 m ρ c main_call0_v24 (by decide)).trans ((keepR2 m ρ c main_call0_v24 (by decide)).trans ((keepH2 m ρ c main_call0_v24 (by decide)).trans ((keepR1 m ρ c main_call0_v24 (by decide)).trans ((keepH1 m ρ c main_call0_v24 (by decide)).trans ((keepR0 m ρ c main_call0_v24 (by decide)))))))
theorem W7_v25 (c : Dev nD) : W7 m ρ c (Proc.devRef .tc main_call0_v25) = W1 m ρ c (Proc.devRef .tc main_call0_v25) :=
  (keepH3 m ρ c main_call0_v25 (by decide)).trans ((keepR2 m ρ c main_call0_v25 (by decide)).trans ((keepH2 m ρ c main_call0_v25 (by decide)).trans ((keepR1 m ρ c main_call0_v25 (by decide)).trans ((keepH1 m ρ c main_call0_v25 (by decide)).trans ((keepR0 m ρ c main_call0_v25 (by decide)))))))
theorem W7_v47 (c : Dev nD) : W7 m ρ c (Proc.devRef .tc main_call0_v47) = W4 m ρ c (Proc.devRef .tc main_call0_v47) :=
  (keepH3 m ρ c main_call0_v47 (by decide)).trans ((keepR2 m ρ c main_call0_v47 (by decide)).trans ((keepH2 m ρ c main_call0_v47 (by decide))))
theorem W6_v36 (c : Dev nD) : W6 m ρ c (Proc.devRef .tc main_call0_v36) = W2 m ρ c (Proc.devRef .tc main_call0_v36) :=
  (keepR2 m ρ c main_call0_v36 (by decide)).trans ((keepH2 m ρ c main_call0_v36 (by decide)).trans ((keepR1 m ρ c main_call0_v36 (by decide)).trans ((keepH1 m ρ c main_call0_v36 (by decide)))))

/-- The second layer's aggregate over the second relation is the reference's. -/
theorem W7_v70_ref (c : Dev nD) : W7 m ρ c (Proc.devRef .tc main_call0_v70)
    = val_main_v86 (F := Ideal) (A0 m c) (A1 m c) (A2 m c) (A3 m c) (A4 m c) (A5 m c) (A8 m c) (A9 m c) (A10 m c) := by
  rw [W7_v70 (F := Ideal) m ρ c, agg2K_ms_eq, W6_v36, W2_v36, ref_v86]

/-- After region 3 its output array is the reference's second layer-2 output. -/
theorem W8_v71 (c : Dev nD) : W8 m ρ c (Proc.devRef .tc main_call0_v71)
    = val_main_v101 (F := Ideal) (A0 m c) (A1 m c) (A2 m c) (A3 m c) (A4 m c) (A5 m c) (A8 m c) (A9 m c) (A10 m c) (A11 m c) (A12 m c) (A13 m c) (A17 m c) (A18 m c) (A19 m c) := by
  refine (W8_arr m ρ c 6).trans ((Region3.value (V7 m ρ) c).trans ?_)
  funext i
  rw [z_srna_apply, clamp_v92, ref_v90]
  show Combine.entryMul (n := 20000) (W7 m ρ c (Proc.devRef .tc main_call0_v70)) (W7 m ρ c (Proc.devRef .tc main_call0_v17))
      (W7 m ρ c (Proc.devRef .tc main_call0_v47)) (W7 m ρ c (Proc.devRef .tc main_call0_v24)) (W7 m ρ c (Proc.devRef .tc main_arg18))
      (W7 m ρ c (Proc.devRef .tc main_call0_v25)) (i 0) (i 1) = _
  rw [Combine.entryMul_eq_entryDiv (n := 20000) _ _ (val_main_v39 (F := Ideal) (A5 m c)) _ _ _ _ (i 0) (i 1)
    ((congrFun (W7_v17 m ρ c) _).trans (W1_v17_apply m ρ c (i 0)))]
  rw [W7_v70_ref, W7_v47, W4_v47, W7_v24, W1_v24 (F := Ideal) m ρ c, argW7 m ρ c main_arg18 (by decide), W7_v25, W1_v25 (F := Ideal) m ρ c, truncf_id, truncf_id]

/-! ## The decoder -/

theorem W8_v59 (c : Dev nD) : W8 m ρ c (Proc.devRef .tc main_call0_v59) = W6 m ρ c (Proc.devRef .tc main_call0_v59) :=
  (keepR3 m ρ c main_call0_v59 (by decide)).trans ((keepH3 m ρ c main_call0_v59 (by decide)))

/-- The kernel's result buffer ends at the reference's result, as a function of the arguments. -/
theorem W9_result (c : Dev nD) : W9 m ρ c (Proc.devRef .tc main_v0)
    = val_main_v117 (F := Ideal) (A0 m c) (A1 m c) (A2 m c) (A3 m c) (A4 m c) (A5 m c) (A6 m c) (A7 m c) (A8 m c) (A9 m c) (A10 m c)
        (A11 m c) (A12 m c) (A13 m c) (A14 m c) (A15 m c) (A16 m c) (A17 m c) (A18 m c) (A19 m c) := by
  rw [W9_v0 (F := Ideal) m ρ c, W8_v71, W8_v59, W6_v59, ref_v117]

end Cert.KernelIdeal.HostValue

end
-- ==== Proof.lean ====
/-
  The certificate of the heterogeneous two-layer GraphSAGE kernel against its reference.

  Both programs gather source rows along each relation's edges, scatter-add them into per-destination aggregates, and
  combine: mean · Wl + b + x_dst · Wr, with a clamp at zero after the first layer, then decode an edge score as the inner
  product of two gathered embedding rows. The reference divides each aggregate by the in-degree clamped below at one; the
  kernel multiplies by the reciprocal of that clamped in-degree, computed once per relation, rounds operands to a narrow
  float format (the identity on the extended reals), and forms each combine block by block in four kernel regions.

  * Frames: the kernel's two programs by the generated frame certificate; the reference's by its generated run.
  * The idealization rewrote nothing, so its soundness claim is trivial.
  * Equality of results: the kernel's run ends with its result buffer at the last boundary's contents (KernelRun); those
    contents, walked back through the host stretches (HostKeep, HostFacts) and the four regions (Region0 … Region3), are
    the reference's result term at the same arguments (Layer1, Layer2), by the law a / c = a · (1 / c) for c ≥ 1 (Combine).
-/
import proofs.«428911_j46093589020843_3_alg».proof.Defs
import proofs.«428911_j46093589020843_3_alg».proof.Proof.Gen.Kernel
import proofs.«428911_j46093589020843_3_alg».proof.Proof.Gen.Kernel.Skeleton
import proofs.«428911_j46093589020843_3_alg».proof.Proof.Gen.Kernel.Launch
import proofs.«428911_j46093589020843_3_alg».proof.Proof.Gen.Kernel.Points
import proofs.«428911_j46093589020843_3_alg».proof.Proof.Gen.Kernel.Frame
import proofs.«428911_j46093589020843_3_alg».proof.Proof.Gen.KernelIdeal
import proofs.«428911_j46093589020843_3_alg».proof.Proof.Gen.KernelIdeal.Skeleton
import proofs.«428911_j46093589020843_3_alg».proof.Proof.Gen.KernelIdeal.Launch
import proofs.«428911_j46093589020843_3_alg».proof.Proof.Gen.KernelIdeal.Points
import proofs.«428911_j46093589020843_3_alg».proof.Proof.Gen.KernelIdeal.Frame
import proofs.«428911_j46093589020843_3_alg».proof.Proof.Gen.ReferenceIdeal
import proofs.«428911_j46093589020843_3_alg».proof.Proof.Gen.ReferenceIdeal.Run
import proofs.«428911_j46093589020843_3_alg».proof.Proof.Gen.ReferenceIdeal.Read
import proofs.«428911_j46093589020843_3_alg».proof.Proof.Gen.Pre_finite_inputs
import proofs.«428911_j46093589020843_3_alg».proof.Proof.KernelRun
import proofs.«428911_j46093589020843_3_alg».proof.Proof.Layer2
import Idealize.ShloMosaic.Adequacy
import Idealize.ShloMosaic.Init

noncomputable section

namespace Cert.Proof

open Idealize.ShloMosaic Idealize.SL.Sem

/-- The two idealized programs, run from memories that agree on the arguments, end with equal results: the kernel's result
    buffer holds the reference's result term at the kernel's arguments, and the arguments agree. -/
theorem algebraic : Cert.algebraic_KernelIdeal_ReferenceIdeal := by
  intro m ρ m' ρ' _ hagree
  refine ⟨fun c => Cert.KernelIdeal.Gen.W9 m ρ c (Proc.devRef .tc Cert.KernelIdeal.main_v0),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  show Cert.ReferenceIdeal.Value.res_main_v117 m' c = Cert.KernelIdeal.Gen.W9 m ρ c (Proc.devRef .tc Cert.KernelIdeal.main_v0)
  rw [Cert.ReferenceIdeal.Read.val_main_v117_eq, Cert.KernelIdeal.HostValue.W9_result,
    h0, h1, h2, h3, h4, h5, h6, h7, h8, h9, h10, h11, h12, h13, h14, h15, h16, h17, h18, h19]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
